-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x131072 : Shape := ⟨2, ![2, 131072]⟩
abbrev S131072 : Shape := ⟨1, ![131072]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S2x131072 : S_.BroadcastsInDim S2x131072 (![] : Fin 0 → Fin S2x131072.rank)
  reducesTo_S2x131072_S_d0_1 : S2x131072.ReducesTo [0, 1] S_

variable [Facts]

def fn {F : FTy → Type} [FloatOps F] (main_arg0 : IVec S2x131072 32) (main_arg1 : FVec F S131072 .f32) (main_arg2 : IVec S2x131072 32) (main_arg3 : FVec F S131072 .f32) : IVec S_ 1 :=
  let main_v0 : FVec F S131072 .f32 := Host.absf main_arg1
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S131072 .f32 := Host.absf main_arg3
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_c_2 : IVec S_ 32 := constantI S_ 32 0#32
  let main_v9 : IVec S2x131072 32 := broadcastInDim S2x131072 ![] bcast_S_S2x131072 main_c_2
  let main_v10 : IVec S2x131072 1 := cmpi .sge main_arg0 main_v9
  let main_c_3 : IVec S_ 32 := constantI S_ 32 8192#32
  let main_v11 : IVec S2x131072 32 := broadcastInDim S2x131072 ![] bcast_S_S2x131072 main_c_3
  let main_v12 : IVec S2x131072 1 := cmpi .slt main_arg0 main_v11
  let main_v13 : IVec S2x131072 1 := andi main_v10 main_v12
  let main_c_4 : IVec S_ 1 := constantI S_ 1 1#1
  let main_v14 : IVec S_ 1 := (fun x v => Host.reduce IntOp.andi x v reducesTo_S2x131072_S_d0_1 h_S_) main_v13 main_c_4
  let main_v15 : IVec S_ 1 := andi main_v8 main_v14
  main_v15
-- ==== Kernel.lean ====
abbrev S2x131072 : Shape := ⟨2, ![2, 131072]⟩
abbrev S131072 : Shape := ⟨1, ![131072]⟩
abbrev S1x131072 : Shape := ⟨2, ![1, 131072]⟩
abbrev S_ : Shape := ⟨0, ![]⟩
abbrev S131072x1 : Shape := ⟨2, ![131072, 1]⟩
abbrev S8192x8192 : Shape := ⟨2, ![8192, 8192]⟩
abbrev S131072x2 : Shape := ⟨2, ![131072, 2]⟩
abbrev S8192x2048 : Shape := ⟨2, ![8192, 2048]⟩
abbrev S256x8192 : Shape := ⟨2, ![256, 8192]⟩
abbrev S8192x1024 : Shape := ⟨2, ![8192, 1024]⟩
abbrev S256x1024 : Shape := ⟨2, ![256, 1024]⟩

abbrev nBuf : Space → Nat
  | .hbm => 123
  | .vmem => 6
  | .smem => 0
  | _ => 0

abbrev bufTy : (tb : Table) → Fin (tcTables nBuf tb) → BufTy
  | .hbm, ⟨0, _⟩ => ⟨S2x131072, .i32⟩
  | .hbm, ⟨1, _⟩ => ⟨S131072, .f32⟩
  | .hbm, ⟨2, _⟩ => ⟨S2x131072, .i32⟩
  | .hbm, ⟨3, _⟩ => ⟨S131072, .f32⟩
  | .hbm, ⟨4, _⟩ => ⟨S1x131072, .i32⟩
  | .hbm, ⟨5, _⟩ => ⟨S131072, .i32⟩
  | .hbm, ⟨6, _⟩ => ⟨S1x131072, .i32⟩
  | .hbm, ⟨7, _⟩ => ⟨S131072, .i32⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072, .i32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072, .f32⟩
  | .hbm, ⟨42, _⟩ => ⟨S_, .f32⟩
  | .hbm, ⟨43, _⟩ => ⟨S8192x8192, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S131072x1, .i32⟩
  | .hbm, ⟨59, _⟩ => ⟨S131072x1, .i32⟩
  | .hbm, ⟨60, _⟩ => ⟨S131072x2, .i32⟩
  | .hbm, ⟨61, _⟩ => ⟨S8192x8192, .f32⟩
  | .hbm, ⟨62, _⟩ => ⟨S8192x8192, .bf16⟩
  | .hbm, ⟨63, _⟩ => ⟨S1x131072, .i32⟩
  | .hbm, ⟨64, _⟩ => ⟨S131072, .i32⟩
  | .hbm, ⟨65, _⟩ => ⟨S1x131072, .i32⟩
  | .hbm, ⟨66, _⟩ => ⟨S131072, .i32⟩
  | .hbm, ⟨67, _⟩ => ⟨S_, .i32⟩
  | .hbm, ⟨68, _⟩ => ⟨S131072, .i32⟩
  | .hbm, ⟨69, _⟩ => ⟨S131072, .i32⟩
  | .hbm, ⟨70, _⟩ => ⟨S131072, .i32⟩
  | .hbm, ⟨71, _⟩ => ⟨S131072, .i32⟩
  | .hbm, ⟨72, _⟩ => ⟨S131072, .i32⟩
  | .hbm, ⟨73, _⟩ => ⟨S131072, .i32⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S131072x1, .i32⟩
  | .hbm, ⟨82, _⟩ => ⟨S131072, .i32⟩
  | .hbm, ⟨83, _⟩ => ⟨S_, .i32⟩
  | .hbm, ⟨84, _⟩ => ⟨S131072, .i32⟩
  | .hbm, ⟨85, _⟩ => ⟨S131072, .i1⟩
  | .hbm, ⟨86, _⟩ => ⟨S_, .i32⟩
  | .hbm, ⟨87, _⟩ => ⟨S131072, .i32⟩
  | .hbm, ⟨88, _⟩ => ⟨S131072, .i32⟩
  | .hbm, ⟨89, _⟩ => ⟨S131072, .i32⟩
  | .hbm, ⟨90, _⟩ => ⟨S131072x1, .i32⟩
  | .hbm, ⟨91, _⟩ => ⟨S131072, .i32⟩
  | .hbm, ⟨92, _⟩ => ⟨S_, .i32⟩
  | .hbm, ⟨93, _⟩ => ⟨S131072, .i32⟩
  | .hbm, ⟨94, _⟩ => ⟨S131072, .i1⟩
  | .hbm, ⟨95, _⟩ => ⟨S_, .i32⟩
  | .hbm, ⟨96, _⟩ => ⟨S131072, .i32⟩
  | .hbm, ⟨97, _⟩ => ⟨S131072, .i32⟩
  | .hbm, ⟨98, _⟩ => ⟨S131072, .i32⟩
  | .hbm, ⟨99, _⟩ => ⟨S131072x1, .i32⟩
  | .hbm, ⟨100, _⟩ => ⟨S131072, .f32⟩
  | .hbm, ⟨101, _⟩ => ⟨S_, .f32⟩
  | .hbm, ⟨102, _⟩ => ⟨S8192x2048, .f32⟩
  | .hbm, ⟨103, _⟩ => ⟨S_, .i32⟩
  | .hbm, ⟨104, _⟩ => ⟨S131072, .i32⟩
  | .hbm, ⟨105, _⟩ => ⟨S131072, .i1⟩
  | .hbm, ⟨106, _⟩ => ⟨S_, .i32⟩
  | .hbm, ⟨107, _⟩ => ⟨S131072, .i32⟩
  | .hbm, ⟨108, _⟩ => ⟨S131072, .i32⟩
  | .hbm, ⟨109, _⟩ => ⟨S131072, .i32⟩
  | .hbm, ⟨110, _⟩ => ⟨S_, .i32⟩
  | .hbm, ⟨111, _⟩ => ⟨S131072, .i32⟩
  | .hbm, ⟨112, _⟩ => ⟨S131072, .i1⟩
  | .hbm, ⟨113, _⟩ => ⟨S_, .i32⟩
  | .hbm, ⟨114, _⟩ => ⟨S131072, .i32⟩
  | .hbm, ⟨115, _⟩ => ⟨S131072, .i32⟩
  | .hbm, ⟨116, _⟩ => ⟨S131072, .i32⟩
  | .hbm, ⟨117, _⟩ => ⟨S131072x1, .i32⟩
  | .hbm, ⟨118, _⟩ => ⟨S131072x1, .i32⟩
  | .hbm, ⟨119, _⟩ => ⟨S131072x2, .i32⟩
  | .hbm, ⟨120, _⟩ => ⟨S8192x2048, .f32⟩
  | .hbm, ⟨121, _⟩ => ⟨S8192x2048, .bf16⟩
  | .hbm, ⟨122, _⟩ => ⟨S8192x2048, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S8192x1024, .bf16⟩
  | .local _ .vmem, ⟨4, _⟩ => ⟨S256x1024, .f32⟩
  | .local _ .vmem, ⟨5, _⟩ => ⟨S256x1024, .f32⟩
  | _, _ => ⟨S2x131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_call0_v0 : Ref sig .tc := ⟨.hbm, 12, rfl⟩
abbrev main_call0_call0_v1_0 : Ref sig .tc := ⟨.hbm, 13, rfl⟩
abbrev main_call0_v7 : Ref sig .tc := ⟨.hbm, 14, rfl⟩
abbrev main_call0_c_0 : Ref sig .tc := ⟨.hbm, 15, rfl⟩
abbrev main_call0_v8 : Ref sig .tc := ⟨.hbm, 16, rfl⟩
abbrev main_call0_v9 : Ref sig .tc := ⟨.hbm, 17, rfl⟩
abbrev main_call0_c_1 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_2 : Ref sig .tc := ⟨.hbm, 24, rfl⟩
abbrev main_call0_v15 : Ref sig .tc := ⟨.hbm, 25, rfl⟩
abbrev main_call0_v16 : Ref sig .tc := ⟨.hbm, 26, rfl⟩
abbrev main_call0_c_3 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_c_4 : Ref sig .tc := ⟨.hbm, 33, rfl⟩
abbrev main_call0_v22 : Ref sig .tc := ⟨.hbm, 34, rfl⟩
abbrev main_call0_v23 : Ref sig .tc := ⟨.hbm, 35, rfl⟩
abbrev main_call0_c_5 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_cst : Ref sig .tc := ⟨.hbm, 42, rfl⟩
abbrev main_call0_v29 : Ref sig .tc := ⟨.hbm, 43, rfl⟩
abbrev main_call0_c_6 : Ref sig .tc := ⟨.hbm, 44, rfl⟩
abbrev main_call0_v30 : Ref sig .tc := ⟨.hbm, 45, rfl⟩
abbrev main_call0_v31 : Ref sig .tc := ⟨.hbm, 46, rfl⟩
abbrev main_call0_c_7 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_c_8 : Ref sig .tc := ⟨.hbm, 51, rfl⟩
abbrev main_call0_v35 : Ref sig .tc := ⟨.hbm, 52, rfl⟩
abbrev main_call0_v36 : Ref sig .tc := ⟨.hbm, 53, rfl⟩
abbrev main_call0_c_9 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_call0_v45 : Ref sig .tc := ⟨.hbm, 63, rfl⟩
abbrev main_call0_v46 : Ref sig .tc := ⟨.hbm, 64, rfl⟩
abbrev main_call0_v47 : Ref sig .tc := ⟨.hbm, 65, rfl⟩
abbrev main_call0_v48 : Ref sig .tc := ⟨.hbm, 66, rfl⟩
abbrev main_call0_c_10 : Ref sig .tc := ⟨.hbm, 67, rfl⟩
abbrev main_call0_v49 : Ref sig .tc := ⟨.hbm, 68, rfl⟩
abbrev main_call0_v50 : Ref sig .tc := ⟨.hbm, 69, rfl⟩
abbrev main_call0_v51 : Ref sig .tc := ⟨.hbm, 70, rfl⟩
abbrev main_call0_call1_v0 : Ref sig .tc := ⟨.hbm, 71, rfl⟩
abbrev main_call0_call1_v1_0 : Ref sig .tc := ⟨.hbm, 72, rfl⟩
abbrev main_call0_v52 : Ref sig .tc := ⟨.hbm, 73, rfl⟩
abbrev main_call0_c_11 : Ref sig .tc := ⟨.hbm, 74, rfl⟩
abbrev main_call0_v53 : Ref sig .tc := ⟨.hbm, 75, rfl⟩
abbrev main_call0_v54 : Ref sig .tc := ⟨.hbm, 76, rfl⟩
abbrev main_call0_c_12 : Ref sig .tc := ⟨.hbm, 77, rfl⟩
abbrev main_call0_v55 : Ref sig .tc := ⟨.hbm, 78, rfl⟩
abbrev main_call0_v56 : Ref sig .tc := ⟨.hbm, 79, rfl⟩
abbrev main_call0_v57 : Ref sig .tc := ⟨.hbm, 80, rfl⟩
abbrev main_call0_v58 : Ref sig .tc := ⟨.hbm, 81, rfl⟩
abbrev main_call0_v59 : Ref sig .tc := ⟨.hbm, 82, rfl⟩
abbrev main_call0_c_13 : Ref sig .tc := ⟨.hbm, 83, rfl⟩
abbrev main_call0_v60 : Ref sig .tc := ⟨.hbm, 84, rfl⟩
abbrev main_call0_v61 : Ref sig .tc := ⟨.hbm, 85, rfl⟩
abbrev main_call0_c_14 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_c_15 : Ref sig .tc := ⟨.hbm, 92, rfl⟩
abbrev main_call0_v67 : Ref sig .tc := ⟨.hbm, 93, rfl⟩
abbrev main_call0_v68 : Ref sig .tc := ⟨.hbm, 94, rfl⟩
abbrev main_call0_c_16 : Ref sig .tc := ⟨.hbm, 95, rfl⟩
abbrev main_call0_v69 : Ref sig .tc := ⟨.hbm, 96, rfl⟩
abbrev main_call0_v70 : Ref sig .tc := ⟨.hbm, 97, rfl⟩
abbrev main_call0_v71 : Ref sig .tc := ⟨.hbm, 98, rfl⟩
abbrev main_call0_v72 : Ref sig .tc := ⟨.hbm, 99, rfl⟩
abbrev main_call0_v73 : Ref sig .tc := ⟨.hbm, 100, rfl⟩
abbrev main_call0_cst_17 : Ref sig .tc := ⟨.hbm, 101, rfl⟩
abbrev main_call0_v74 : Ref sig .tc := ⟨.hbm, 102, rfl⟩
abbrev main_call0_c_18 : Ref sig .tc := ⟨.hbm, 103, rfl⟩
abbrev main_call0_v75 : Ref sig .tc := ⟨.hbm, 104, rfl⟩
abbrev main_call0_v76 : Ref sig .tc := ⟨.hbm, 105, rfl⟩
abbrev main_call0_c_19 : Ref sig .tc := ⟨.hbm, 106, rfl⟩
abbrev main_call0_v77 : Ref sig .tc := ⟨.hbm, 107, rfl⟩
abbrev main_call0_v78 : Ref sig .tc := ⟨.hbm, 108, rfl⟩
abbrev main_call0_v79 : Ref sig .tc := ⟨.hbm, 109, rfl⟩
abbrev main_call0_c_20 : Ref sig .tc := ⟨.hbm, 110, rfl⟩
abbrev main_call0_v80 : Ref sig .tc := ⟨.hbm, 111, rfl⟩
abbrev main_call0_v81 : Ref sig .tc := ⟨.hbm, 112, rfl⟩
abbrev main_call0_c_21 : Ref sig .tc := ⟨.hbm, 113, rfl⟩
abbrev main_call0_v82 : Ref sig .tc := ⟨.hbm, 114, rfl⟩
abbrev main_call0_v83 : Ref sig .tc := ⟨.hbm, 115, rfl⟩
abbrev main_call0_v84 : Ref sig .tc := ⟨.hbm, 116, rfl⟩
abbrev main_call0_v85 : Ref sig .tc := ⟨.hbm, 117, rfl⟩
abbrev main_call0_v86 : Ref sig .tc := ⟨.hbm, 118, rfl⟩
abbrev main_call0_v87 : Ref sig .tc := ⟨.hbm, 119, rfl⟩
abbrev main_call0_v88 : Ref sig .tc := ⟨.hbm, 120, rfl⟩
abbrev main_call0_v89 : Ref sig .tc := ⟨.hbm, 121, rfl⟩
abbrev main_v0 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S8192x8192 : S_.BroadcastsInDim S8192x8192 (![] : Fin 0 → Fin S8192x8192.rank)
  concatenates_S131072x1_S131072x1_S131072x2_d1 : Shape.Concatenates [S131072x1, S131072x1] S131072x2 1
  bitsLt_bf16_f32 : FTy.bits .bf16 < FTy.bits .f32
  bcast_S_S8192x2048 : S_.BroadcastsInDim S8192x2048 (![] : Fin 0 → Fin S8192x2048.rank)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S256x1024_S256x1024_0_0 : ∀ a, (![0, 0] : Fin 2 → Nat) a + S256x1024.size a ≤ S256x1024.size a
  h_S256x1024 : 0 < S256x1024.numel
  gather_S131072_S131072x1_S131072_n_0_n_n_0_1_1_wf : GatherDims.WF S131072 S131072x1 S131072 [] [0] [] [0] [] 1 ![1]
  scatter_S8192x8192_S131072x2_S131072_n_01_01_1_wf : ScatterDims.WF S8192x8192 S131072x2 S131072 [] [0, 1] [0, 1] 1
  scatter_S8192x2048_S131072x2_S131072_n_01_01_1_wf : ScatterDims.WF S8192x2048 S131072x2 S131072 [] [0, 1] [0, 1] 1
  dot_S256x8192_S8192x1024_S256x1024_1_0_0_1_n_n_wf : DotDims.WF S256x8192 S8192x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .bf16 = 32 ∨ (Rect.block (s := S8192x8192) S256x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x2048.size a
  hwx0_1 : ∀ i : grid0.Coords, EltTy.bits .bf16 = 32 ∨ (Rect.block (s := S8192x2048) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x2048.size a
  hwx0_2 : ∀ i : grid0.Coords, EltTy.bits .f32 = 32 ∨ (Rect.block (s := S8192x2048) S256x1024.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192x2048_S131072x2_S131072_n_01_01_1 : ScatterDims S8192x2048 S131072x2 S131072 where
  updateWindowDims := []
  insertedWindowDims := [0, 1]
  scatterDimsToOperandDims := [0, 1]
  indexVectorDim := 1
  wf := scatter_S8192x2048_S131072x2_S131072_n_01_01_1_wf
def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf

abbrev win0_0 : Pipeline.Window sig grid0 :=
  Pipeline.Window.ofSpec (Memref.whole main_call0_v44) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v89) S8192x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x131072 : Shape := ⟨2, ![2, 131072]⟩
abbrev S131072 : Shape := ⟨1, ![131072]⟩
abbrev S_ : Shape := ⟨0, ![]⟩
abbrev S8192x2048 : Shape := ⟨2, ![8192, 2048]⟩
abbrev S1x131072 : Shape := ⟨2, ![1, 131072]⟩
abbrev S131072x1 : Shape := ⟨2, ![131072, 1]⟩
abbrev S131072x2 : Shape := ⟨2, ![131072, 2]⟩
abbrev S131072x2048 : Shape := ⟨2, ![131072, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x131072, .i32⟩
  | .hbm, ⟨1, _⟩ => ⟨S131072, .f32⟩
  | .hbm, ⟨2, _⟩ => ⟨S2x131072, .i32⟩
  | .hbm, ⟨3, _⟩ => ⟨S131072, .f32⟩
  | .hbm, ⟨4, _⟩ => ⟨S_, .f32⟩
  | .hbm, ⟨5, _⟩ => ⟨S8192x2048, .f32⟩
  | .hbm, ⟨6, _⟩ => ⟨S1x131072, .i32⟩
  | .hbm, ⟨7, _⟩ => ⟨S131072, .i32⟩
  | .hbm, ⟨8, _⟩ => ⟨S1x131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x1, .i32⟩
  | .hbm, ⟨26, _⟩ => ⟨S131072x2, .i32⟩
  | .hbm, ⟨27, _⟩ => ⟨S8192x2048, .f32⟩
  | .hbm, ⟨28, _⟩ => ⟨S131072x1, .f32⟩
  | .hbm, ⟨29, _⟩ => ⟨S1x131072, .i32⟩
  | .hbm, ⟨30, _⟩ => ⟨S131072, .i32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072x2048, .f32⟩
  | .hbm, ⟨40, _⟩ => ⟨S131072x2048, .f32⟩
  | .hbm, ⟨41, _⟩ => ⟨S131072x2048, .f32⟩
  | .hbm, ⟨42, _⟩ => ⟨S1x131072, .i32⟩
  | .hbm, ⟨43, _⟩ => ⟨S131072, .i32⟩
  | .hbm, ⟨44, _⟩ => ⟨S_, .f32⟩
  | .hbm, ⟨45, _⟩ => ⟨S8192x2048, .f32⟩
  | .hbm, ⟨46, _⟩ => ⟨S131072x1, .i32⟩
  | .hbm, ⟨47, _⟩ => ⟨S8192x2048, .f32⟩
  | _, _ => ⟨S2x131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S131072x1_S131072x2048_0_1 : S131072x1.BroadcastsInDim S131072x2048 (![0, 1] : Fin 2 → Fin S131072x2048.rank)
  scatter_S8192x2048_S131072x2_S131072_n_01_01_1_wf : ScatterDims.WF S8192x2048 S131072x2 S131072 [] [0, 1] [0, 1] 1
  gather_S8192x2048_S131072x1_S131072x2048_1_0_n_n_0_1_12048_wf : GatherDims.WF S8192x2048 S131072x1 S131072x2048 [1] [0] [] [0] [] 1 ![1, 2048]
  scatter_S8192x2048_S131072x1_S131072x2048_1_0_0_1_wf : ScatterDims.WF S8192x2048 S131072x1 S131072x2048 [1] [0] [0] 1

variable [Facts₀]

def scatter_S8192x2048_S131072x2_S131072_n_01_01_1 : ScatterDims S8192x2048 S131072x2 S131072 where
  updateWindowDims := []
  insertedWindowDims := [0, 1]
  scatterDimsToOperandDims := [0, 1]
  indexVectorDim := 1
  wf := scatter_S8192x2048_S131072x2_S131072_n_01_01_1_wf
def gather_S8192x2048_S131072x1_S131072x2048_1_0_n_n_0_1_12048 : GatherDims S8192x2048 S131072x1 S131072x2048 where
  offsetDims := [1]
  collapsedSliceDims := [0]
  operandBatchingDims := []
  startIndicesBatchingDims := []
  startIndexMap := [0]
  indexVectorDim := 1
  sliceSizes := ![1, 2048]
  wf := gather_S8192x2048_S131072x1_S131072x2048_1_0_n_n_0_1_12048_wf
def scatter_S8192x2048_S131072x1_S131072x2048_1_0_0_1 : ScatterDims S8192x2048 S131072x1 S131072x2048 where
  updateWindowDims := [1]
  insertedWindowDims := [0]
  scatterDimsToOperandDims := [0]
  indexVectorDim := 1
  wf := scatter_S8192x2048_S131072x1_S131072x2048_1_0_0_1_wf

class Facts : Prop extends Facts₀ where

variable [Facts]
-- ==== Proof.Coalesce.lean ====
/-
  The one algebraic law between the two programs.

  A sparse matrix given as a list of entries `e ↦ (row e, col e, val e)` can be multiplied by a dense matrix `B`
  in two ways. Densify first: entry `(i, k)` of the dense matrix is the sum of the values of the entries that sit at
  `(i, k)`, and the product's entry is `∑ k, A i k * B k n`. Or never densify: every entry of row `i` contributes its
  value times the row of `B` its column names, `∑ e ∈ row i, val e * B (col e) n`. The two agree because the
  columns partition the entries of a row, and because a product distributes over a sum — which on the extended
  reals needs every number in sight to be finite (`(⊤ + ⊥) * x` is not `⊤ * x + ⊥ * x`). So the law is stated for
  values and matrix entries that are real numbers, and proved in `ℝ`, the coercion pushed outwards.
-/
import Idealize.ShloMosaic.PureOps.Ideal

noncomputable section

open scoped BigOperators

namespace Cert.Coalesce

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- … and with a choice between a real and zero. -/
theorem coe_ite (c : Prop) [Decidable c] (a : ℝ) : ((if c then a else 0 : ℝ) : EReal) = if c then (a : EReal) else 0 := by
  split_ifs <;> simp

/-- The law over the reals: summing, over the columns `k`, the coalesced weight at `k` times `b k` is summing over
    the selected entries their value times `b` at their own column. -/
theorem real_law {ι κ : Type} [Fintype ι] [Fintype κ] [DecidableEq κ] (P : ι → Prop) [DecidablePred P]
    (col : ι → κ) (v : ι → ℝ) (b : κ → ℝ) :
    ∑ k : κ, (∑ e : ι, if P e ∧ col e = k then v e else 0) * b k = ∑ e : ι, if P e then v e * b (col e) else 0 := by
  simp_rw [Finset.sum_mul]
  rw [Finset.sum_comm]
  refine Finset.sum_congr rfl fun e _ => ?_
  by_cases hP : P e
  · rw [if_pos hP, Finset.sum_eq_single (col e)]
    · rw [if_pos ⟨hP, rfl⟩]
    · intro k _ hk
      rw [if_neg (fun h => hk h.2.symm), zero_mul]
    · intro h; exact absurd (Finset.mem_univ _) h
  · rw [if_neg hP]
    refine Finset.sum_eq_zero fun k _ => ?_
    rw [if_neg (fun h => hP h.1), zero_mul]

/-- THE LAW on the extended reals, for finite values and finite matrix entries. -/
theorem law {ι κ : Type} [Fintype ι] [Fintype κ] [DecidableEq κ] (P : ι → Prop) [DecidablePred P]
    (col : ι → κ) (val : ι → EReal) (B : κ → EReal)
    (hval : ∀ e, ∃ r : ℝ, val e = r) (hB : ∀ k, ∃ r : ℝ, B k = r) :
    ∑ k : κ, (∑ e : ι, if P e ∧ col e = k then val e else 0) * B k = ∑ e : ι, if P e then val e * B (col e) else 0 := by
  choose v hv using hval
  choose b hb using hB
  have hl : ∀ k : κ, (∑ e : ι, if P e ∧ col e = k then val e else 0) * B k
      = ((((∑ e : ι, if P e ∧ col e = k then v e else 0) * b k : ℝ)) : EReal) := by
    intro k
    rw [EReal.coe_mul, coe_sum, hb k]
    refine congrArg (· * (b k : EReal)) (Finset.sum_congr rfl fun e _ => ?_)
    rw [coe_ite, hv e]
  have hr : ∀ e : ι, (if P e then val e * B (col e) else 0) = (((if P e then v e * b (col e) else 0 : ℝ)) : EReal) := by
    intro e
    rw [coe_ite, EReal.coe_mul, hv e, hb (col e)]
  simp_rw [hl, hr]
  rw [← coe_sum, ← coe_sum, real_law]

/-- A finite sum of finite numbers is finite: what makes the densified matrix's entries real. -/
theorem sum_real {ι : Type} (s : Finset ι) (f : ι → EReal) (hf : ∀ i, ∃ r : ℝ, f i = r) : ∃ r : ℝ, ∑ i ∈ s, f i = r := by
  choose g hg using hf
  exact ⟨∑ i ∈ s, g i, by rw [coe_sum]; exact Finset.sum_congr rfl fun i _ => hg i⟩

end Cert.Coalesce

end
-- ==== Proof.Spec.lean ====
/-
  What both programs compute, as functions of the four argument arrays, and why the two functions agree.

  The arguments are two sparse matrices in coordinate form: `ind : [2, E]` holds, for entry `e`, its row `ind[0, e]`
  and its column `ind[1, e]`, and `val : [E]` its value (`E = 131072`). Both programs first read a coordinate the way
  jnp reads an index, a negative word `w` standing for `w + n` (`wrapW`), and densify by accumulation: entry `(i, k)`
  of `dense` is the sum of the values whose wrapped coordinates are `(i, k)`; coordinates outside the matrix meet no
  entry. The kernel densifies both operands and multiplies: `prodSpec A B`. The reference densifies only `B`, then for
  each entry of the first operand adds `val · B[col, :]` into row `row` of the result, the column read as a gather
  reads it (wrapped, then clamped into the table: `clampRow`) and the row as a scatter reads it (as it stands, an entry
  outside dropped): `refSpec`.

  Where every coordinate of the first operand is in `[0, 8192)` the wrap and the clamp do nothing, and the two are the
  two sides of `Coalesce.law`: the entries of a row, gathered by column and then multiplied, or multiplied one by one.
  That law distributes a product over a sum, so it needs the values and `B`'s entries to be finite.
-/
import Idealize.ShloMosaic.PureOps.Ideal
import Idealize.ShloMosaic.Lib.ValueIdx
import proofs.«404442_j80616536146653_3_alg».proof.Proof.Coalesce

noncomputable section

open scoped BigOperators

namespace Cert.Spec

open Idealize.ShloMosaic Idealize.ShloMosaic.ValueIdx

/-- The entries' index space, the coordinate arrays' and the three matrices'. -/
abbrev SE : Shape := ⟨1, ![131072]⟩
abbrev S2E : Shape := ⟨2, ![2, 131072]⟩
abbrev SMK : Shape := ⟨2, ![8192, 8192]⟩
abbrev SKN : Shape := ⟨2, ![8192, 2048]⟩

/-- jnp's reading of a possibly negative index word against an extent `n`: `w < 0 ? w + n : w`, on words. -/
def wrapW (n w : BitVec 32) : BitVec 32 := Scalar.select (IntOp.cmpi .slt w 0#32) (IntOp.addi w n) w

/-- A start index read as a gather reads it: signed, clamped into `[0, N − 1]`. -/
def clampRow (N : Nat) (hN : 0 < N) (w : BitVec 32) : Fin N := ⟨min w.toInt.toNat (N - 1), by omega⟩

/-- THE DENSE MATRIX of a coordinate list, `M × K` (`nM`, `nK` the extents as words): entry `y` is the sum of the
    values of the entries whose wrapped row and column are `y`'s. -/
def dense (M K : Nat) (nM nK : BitVec 32) (ind : IVec S2E 32) (val : SE.Idx → EReal) :
    (⟨2, ![M, K]⟩ : Shape).Idx → EReal := fun y =>
  ∑ e : Fin 131072,
    if (wrapW nM (ind (ix2 (0 : Fin 2) e))).toInt = ((y 0).val : ℤ) ∧ (wrapW nK (ind (ix2 (1 : Fin 2) e))).toInt = ((y 1).val : ℤ)
    then val (ix1 e) else 0

/-- The kernel's result: the matrix product of the two dense operands. -/
def prodSpec (A : SMK.Idx → EReal) (B : SKN.Idx → EReal) : SKN.Idx → EReal := fun y =>
  ∑ k : Fin 8192, A (ix2 (y 0) k) * B (ix2 k (y 1))

/-- The reference's result: row `y 0` collects, from every entry whose raw row word is `y 0`, its value times the
    entry of `B` in the row its column word names (wrapped, clamped) and in column `y 1`. -/
def refSpec (ind : IVec S2E 32) (val : SE.Idx → EReal) (B : SKN.Idx → EReal) : SKN.Idx → EReal := fun y =>
  ∑ e : Fin 131072,
    if (ind (ix2 (0 : Fin 2) e)).toInt = ((y 0).val : ℤ)
    then val (ix1 e) * B (ix2 (clampRow 8192 (by norm_num) (wrapW 8192#32 (ind (ix2 (1 : Fin 2) e)))) (y 1)) else 0

/-- A non-negative word is its own wrapped reading. -/
theorem wrapW_of_nonneg (n w : BitVec 32) (h : 0 ≤ w.toInt) : wrapW n w = w := by
  unfold wrapW Scalar.select IntOp.cmpi
  have : w.slt 0#32 = false := by
    rw [BitVec.slt_eq_decide]
    simpa using h
  simp [this]

/-- A dense matrix of finite values has finite entries. -/
theorem dense_real (M K : Nat) (nM nK : BitVec 32) (ind : IVec S2E 32) (val : SE.Idx → EReal)
    (hv : ∀ e, ∃ r : ℝ, val e = r) (y : (⟨2, ![M, K]⟩ : Shape).Idx) : ∃ r : ℝ, dense M K nM nK ind val y = r := by
  unfold dense
  refine Cert.Coalesce.sum_real _ _ fun e => ?_
  split_ifs
  · exact hv _
  · exact ⟨0, by simp⟩

/-- THE BRIDGE: with the first operand's coordinates all in `[0, 8192)`, its values finite and `B`'s entries finite,
    the product of the dense operand with `B` is the reference's entry-by-entry accumulation. -/
theorem bridge (ind : IVec S2E 32) (val : SE.Idx → EReal) (B : SKN.Idx → EReal)
    (hr : ∀ (a : Fin 2) (e : Fin 131072), 0 ≤ (ind (ix2 a e)).toInt ∧ (ind (ix2 a e)).toInt < 8192)
    (hv : ∀ e, ∃ r : ℝ, val e = r) (hB : ∀ y, ∃ r : ℝ, B y = r) :
    prodSpec (dense 8192 8192 8192#32 8192#32 ind val) B = refSpec ind val B := by
  funext y
  unfold prodSpec refSpec dense
  -- the column of entry `e`, as an index of `B`'s rows
  let col : Fin 131072 → Fin 8192 := fun e => ⟨(ind (ix2 (1 : Fin 2) e)).toInt.toNat, by have := hr 1 e; omega⟩
  have hlaw := Cert.Coalesce.law (ι := Fin 131072) (κ := Fin 8192)
    (fun e => (ind (ix2 (0 : Fin 2) e)).toInt = ((y 0).val : ℤ)) col (fun e => val (ix1 e)) (fun k => B (ix2 k (y 1)))
    (fun e => hv _) (fun k => hB _)
  have hL : ∀ k : Fin 8192,
      (∑ e : Fin 131072, if (wrapW 8192#32 (ind (ix2 (0 : Fin 2) e))).toInt = (((ix2 (y 0) k : SMK.Idx) 0).val : ℤ)
          ∧ (wrapW 8192#32 (ind (ix2 (1 : Fin 2) e))).toInt = (((ix2 (y 0) k : SMK.Idx) 1).val : ℤ) then val (ix1 e) else 0)
      = ∑ e : Fin 131072, if (ind (ix2 (0 : Fin 2) e)).toInt = ((y 0).val : ℤ) ∧ col e = k then val (ix1 e) else 0 := by
    intro k
    refine Finset.sum_congr rfl fun e _ => ?_
    rw [wrapW_of_nonneg _ _ (hr 0 e).1, wrapW_of_nonneg _ _ (hr 1 e).1]
    have hc : ((ind (ix2 (1 : Fin 2) e)).toInt = ((k.val : ℕ) : ℤ)) ↔ col e = k := by
      have := hr 1 e
      constructor
      · intro h; exact Fin.ext (by show (ind (ix2 (1 : Fin 2) e)).toInt.toNat = k.val; omega)
      · intro h; have := congrArg Fin.val h; simp only [col] at this; omega
    exact if_congr (and_congr Iff.rfl hc) rfl rfl
  have hR : ∀ e : Fin 131072,
      clampRow 8192 (by norm_num) (wrapW 8192#32 (ind (ix2 (1 : Fin 2) e))) = col e := by
    intro e
    rw [wrapW_of_nonneg _ _ (hr 1 e).1]
    have := hr 1 e
    exact Fin.ext (by show min (ind (ix2 (1 : Fin 2) e)).toInt.toNat (8192 - 1) = (ind (ix2 (1 : Fin 2) e)).toInt.toNat; omega)
  simp_rw [hL, hR]
  exact hlaw

end Cert.Spec

end
-- ==== Proof.KernelBlocks.lean ====
/-
  The kernel's region, block by block: every grid point multiplies a block of 256 rows of the first operand by a block
  of 1024 columns of the second, and the 64 blocks it writes tile the result; so the result array is the matrix product.
-/
import proofs.«404442_j80616536146653_3_alg».proof.Proof.Gen.KernelIdeal.Value
import proofs.«404442_j80616536146653_3_alg».proof.Proof.Spec
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block product at an index

The body's one value is a product of a 256 × 8192 block by an 8192 × 1024 block into a zero accumulator. Its dimension
numbers contract the first operand's axis 1 with the second's axis 0; the four lemmas below say where, for an output
index (r, s) and a contraction position k, the two operand indices sit: (r, k) and (k, s). -/

/-- The first operand's row is the output's row. -/
theorem lhs_row (i : S256x1024.Idx) (q : dot_S256x8192_S8192x1024_S256x1024_1_0_0_1_n_n.contr.Idx) :
    (dot_S256x8192_S8192x1024_S256x1024_1_0_0_1_n_n.lhsIdx i q 0).val = (i 0).val := by
  unfold DotDims.lhsIdx
  rw [dif_neg (show ¬(0 : Fin S256x8192.rank) ∈ dot_S256x8192_S8192x1024_S256x1024_1_0_0_1_n_n.lhsBatch by decide),
    dif_pos (show (0 : Fin S256x8192.rank) ∈ dot_S256x8192_S8192x1024_S256x1024_1_0_0_1_n_n.lhsNonContracting by decide)]
  rfl

/-- The first operand's column is the contraction position. -/
theorem lhs_contr (i : S256x1024.Idx) (q : dot_S256x8192_S8192x1024_S256x1024_1_0_0_1_n_n.contr.Idx) :
    (dot_S256x8192_S8192x1024_S256x1024_1_0_0_1_n_n.lhsIdx i q 1).val = (q ⟨0, by decide⟩).val :=
  dot_S256x8192_S8192x1024_S256x1024_1_0_0_1_n_n.lhsIdx_val_of_single rfl i q

/-- The second operand's row is the contraction position. -/
theorem rhs_contr (i : S256x1024.Idx) (q : dot_S256x8192_S8192x1024_S256x1024_1_0_0_1_n_n.contr.Idx) :
    (dot_S256x8192_S8192x1024_S256x1024_1_0_0_1_n_n.rhsIdx i q 0).val = (q ⟨0, by decide⟩).val :=
  dot_S256x8192_S8192x1024_S256x1024_1_0_0_1_n_n.rhsIdx_val_of_single rfl i q

/-- The second operand's column is the output's column. -/
theorem rhs_col (i : S256x1024.Idx) (q : dot_S256x8192_S8192x1024_S256x1024_1_0_0_1_n_n.contr.Idx) :
    (dot_S256x8192_S8192x1024_S256x1024_1_0_0_1_n_n.rhsIdx i q 1).val = (i 1).val := by
  unfold DotDims.rhsIdx
  rw [dif_neg (show ¬(1 : Fin S8192x1024.rank) ∈ dot_S256x8192_S8192x1024_S256x1024_1_0_0_1_n_n.rhsBatch by decide),
    dif_pos (show (1 : Fin S8192x1024.rank) ∈ dot_S256x8192_S8192x1024_S256x1024_1_0_0_1_n_n.rhsNonContracting by decide)]
  rfl

/-- THE BLOCK PRODUCT at (r, s): the sum over k of the first block at (r, k) times the second at (k, s). -/
theorem blockProd_apply (x0 : FVec Ideal S256x8192 .bf16) (x1 : FVec Ideal S8192x1024 .bf16) (r : Fin 256) (s : Fin 1024) :
    k0_pay1 (F := Ideal) x0 x1 (ix2 r s) = ∑ k : Fin 8192, x0 (ix2 r k) * x1 (ix2 k s) := by
  unfold k0_pay1
  simp only [shapeCast_self, matmul]
  rw [Ideal.matmul_constant_zero_apply, ← Equiv.sum_comp (contrEquiv1 dot_S256x8192_S8192x1024_S256x1024_1_0_0_1_n_n 8192 rfl rfl).symm]
  refine Finset.sum_congr rfl fun k _ => ?_
  have hk := contrEquiv1_symm_val dot_S256x8192_S8192x1024_S256x1024_1_0_0_1_n_n 8192 rfl rfl k
  have el : dot_S256x8192_S8192x1024_S256x1024_1_0_0_1_n_n.lhsIdx (ix2 r s) ((contrEquiv1 dot_S256x8192_S8192x1024_S256x1024_1_0_0_1_n_n 8192 rfl rfl).symm k) = ix2 r k := funext fun a => Fin.ext (by
    match a with
    | ⟨0, _⟩ => exact lhs_row _ _
    | ⟨1, _⟩ => exact (lhs_contr _ _).trans hk)
  have er : dot_S256x8192_S8192x1024_S256x1024_1_0_0_1_n_n.rhsIdx (ix2 r s) ((contrEquiv1 dot_S256x8192_S8192x1024_S256x1024_1_0_0_1_n_n 8192 rfl rfl).symm k) = ix2 k s := funext fun a => Fin.ext (by
    match a with
    | ⟨0, _⟩ => exact (rhs_contr _ _).trans hk
    | ⟨1, _⟩ => exact rhs_col _ _)
  rw [el, er]

/-! ## A written-back block is a block of the product

A point's two input blocks are read off the operand arrays at the point's block indices: the first at rows
`256 · b0 …` and all 8192 columns, the second at all 8192 rows and columns `1024 · b1 …`. So the block product at a
local index (r, s) is the whole product at (256 · b0 + r, 1024 · b1 + s): the contraction runs over the same k. -/

/-- Over any two blocks that are those restrictions of `A` and `B`, the block product at `y` is the product of `A`
    and `B` at the index `z` that sits at `y` inside block (b0, b1). -/
theorem prod_of_blocks (A : Cert.Spec.SMK.Idx → EReal) (B : Cert.Spec.SKN.Idx → EReal)
    (x0 : FVec Ideal S256x8192 .bf16) (x1 : FVec Ideal S8192x1024 .bf16) (b0 b1 : Nat)
    (h0 : ∀ (r : Fin 256) (k : Fin 8192) (r' : Fin 8192), r'.val = b0 * 256 + r.val → x0 (ix2 r k) = A (ix2 r' k))
    (h1 : ∀ (k : Fin 8192) (s : Fin 1024) (s' : Fin 2048), s'.val = b1 * 1024 + s.val → x1 (ix2 k s) = B (ix2 k s'))
    (y : S256x1024.Idx) (z : Cert.Spec.SKN.Idx)
    (hz0 : (z 0).val = b0 * 256 + (y 0).val) (hz1 : (z 1).val = b1 * 1024 + (y 1).val) :
    k0_pay1 (F := Ideal) x0 x1 y = Cert.Spec.prodSpec A B z := by
  obtain ⟨r, s, rfl⟩ : ∃ (r : Fin 256) (s : Fin 1024), y = ix2 r s := ⟨y 0, y 1, eq_ix2 y⟩
  rw [blockProd_apply]
  show _ = ∑ k : Fin 8192, A (ix2 (z 0) k) * B (ix2 k (z 1))
  refine Finset.sum_congr rfl fun k _ => ?_
  rw [h0 r k (z 0) hz0, h1 k s (z 1) hz1]

variable (m : (ℓ : Loc nD τ sig) → Buf (Elt Ideal) ℓ) (ρ : Dev nD → PrngReg)

theorem zeros : (![0, 0] : Fin 2 → Nat) = fun _ => 0 :=
  funext fun a => by match a with | ⟨0, _⟩ => rfl | ⟨1, _⟩ => rfl

/-- The three index maps, decided over the 64 points: the first operand's block moves with the result's row block and
    spans every column; the second spans every row and moves with the result's column block; the result's block indices
    stay below 32 and 2. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 31 ∧ win0_2.index t (1 : Fin 2) ≤ 1 :=
  (by decide +kernel : ∀ t : Fin grid0.N, _)

/-- Every (row block, column block) of the result is some point's. -/
theorem index_onto : ∀ (q0 : Fin 32) (q1 : Fin 2), ∃ t : Fin cfg0.N, win0_2.index t = ![q0.val, q1.val] :=
  (by decide +kernel : ∀ (q0 : Fin 32) (q1 : Fin 2), ∃ t : Fin grid0.N, win0_2.index t = ![q0.val, q1.val])

/-- The first operand's block at point `t`, at (r, k), is the array at (256 · b + r, k), `b` the point's row block. -/
theorem lhsBlock_apply (c : Dev nD) (t : Fin cfg0.N) (r : Fin 256) (k : Fin 8192) (r' : Fin 8192)
    (hr : r'.val = win0_2.index t (0 : Fin 2) * 256 + r.val) :
    (iblk m c 0 t : FVec Ideal S256x8192 .bf16) (ix2 r k) = V m c main_call0_v44 (ix2 r' k) := by
  obtain ⟨e0, e1, -, -, -, -⟩ := index_facts t
  unfold iblk
  rw [View.read_apply]
  show V m c main_call0_v44 _ = V m c main_call0_v44 _
  refine congrArg _ (funext fun a => Fin.ext ?_)
  match a with
  | ⟨0, _⟩ => show win0_0.index t (0 : Fin 2) * 256 + 1 * r.val = r'.val; omega
  | ⟨1, _⟩ => show win0_0.index t (1 : Fin 2) * 8192 + 1 * k.val = k.val; omega

/-- The second operand's block at point `t`, at (k, s), is the array at (k, 1024 · b + s), `b` the point's column block. -/
theorem rhsBlock_apply (c : Dev nD) (t : Fin cfg0.N) (k : Fin 8192) (s : Fin 1024) (s' : Fin 2048)
    (hs : s'.val = win0_2.index t (1 : Fin 2) * 1024 + s.val) :
    (iblk m c 1 t : FVec Ideal S8192x1024 .bf16) (ix2 k s) = V m c main_call0_v89 (ix2 k s') := by
  obtain ⟨-, -, e2, e3, -, -⟩ := index_facts t
  unfold iblk
  rw [View.read_apply]
  show V m c main_call0_v89 _ = V m c main_call0_v89 _
  refine congrArg _ (funext fun a => Fin.ext ?_)
  match a with
  | ⟨0, _⟩ => show win0_1.index t (0 : Fin 2) * 8192 + 1 * k.val = k.val; omega
  | ⟨1, _⟩ => show win0_1.index t (1 : Fin 2) * 1024 + 1 * s.val = s'.val; omega

/-- WHAT POINT `t` WRITES BACK is block `t` of the product of the two operand arrays as the region finds them. -/
theorem flushed_prod (c : Dev nD) (t : Fin cfg0.N) :
    (dats m 0 c).flushed 2 t
      = ((cfg0.win 2).blk t).view.read (Elt Ideal) (Cert.Spec.prodSpec (V m c main_call0_v44) (V m c main_call0_v89)) := by
  rw [Value.flushed2]
  unfold out0_2
  rw [View.canon_unit_zero zeros]
  simp only [View.ld_unit_zero (S := S256x8192) zeros, View.ld_unit_zero (S := S8192x1024) zeros]
  funext j
  rw [View.read_apply]
  refine prod_of_blocks (V m c main_call0_v44) (V m c main_call0_v89) (iblk m c 0 t) (iblk m c 1 t)
    (win0_2.index t (0 : Fin 2)) (win0_2.index t (1 : Fin 2)) (lhsBlock_apply m c t) (rhsBlock_apply m c t) _ _ ?_ ?_
  · show win0_2.index t (0 : Fin 2) * 256 + 1 * (j 0).val = win0_2.index t (0 : Fin 2) * 256 + (j 0).val; omega
  · show win0_2.index t (1 : Fin 2) * 1024 + 1 * (j 1).val = win0_2.index t (1 : Fin 2) * 1024 + (j 1).val; omega

/-- An index of the result array is in point `t`'s block iff each coordinate is in the block's range on its axis. -/
theorem mem_block (t : Fin cfg0.N) (i : S8192x2048.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v0).slice (win0_2.rect t)).set ↔ _
  rw [View.set_slice_whole, Rect.mem_set_unit]
  exact Iff.rfl

/-- The 64 blocks tile the result: the index (p, q) is in the block of row tile `p / 256` and column half `q / 1024`. -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := index_onto ⟨(i 0).val / 256, by omega⟩ ⟨(i 1).val / 1024, by omega⟩
  have q0 : win0_2.index t (0 : Fin 2) = (i 0).val / 256 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- So the result array ends holding the product. -/
theorem final_prod (c : Dev nD) :
    (dats m 0 c).arrAt 2 cfg0.N = Cert.Spec.prodSpec (V m c main_call0_v44) (V m c main_call0_v89) :=
  (dats m 0 c).arrAt_eq_of_cover 2 _ (fun t _ => flushed_prod m c t) cover

/-- The kernel's run: the result array is the product of the two arrays the region finds, the arguments unchanged. -/
theorem run_prod (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.Spec.prodSpec (V m c main_call0_v44) (V m c main_call0_v89)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_prod m c), (h c).2⟩) (Value.run_blocks m ρ)

end Cert.KernelIdeal.Blocks

end
-- ==== Proof.LibScatterAdd.lean ====
/-
  A host `stablehlo.scatter` with an `add` body, and the row gather that is its transpose, read at ONE index of
  their result, at the ideal instance (floats extended reals, the accumulation an exact sum).

  jnp's `x.at[r, c].add(v)` over a rank-2 operand `[M, K]` prints with scatter indices `[E, 2]` (entry `e`'s row word
  and column word), scalar updates `[E]`, both operand axes inserted window axes: result entry `y` is the operand's
  plus the sum of the updates whose two words, read SIGNED and NOT clamped, are `y`'s coordinates
  (`pair_scatterAdd_apply`); an update whose words name no entry of the operand meets no `y` and is dropped.
  `jax.ops.segment_sum` of rows `[E, N]` into `[M, N]` prints with scatter indices `[E, 1]` and the column axis a
  window axis: result entry `(i, n)` is the operand's plus the sum over the entries `e` whose word is `i` of update
  `(e, n)` (`row_scatterAdd_apply`). `table[idx]` of a table `[N, D]` at `idx : [R]` prints as a gather with start
  indices `[R, 1]`, the row axis collapsed and the column axis an offset axis: result `(r, j)` is column `j` of the
  row the word names, read signed and CLAMPED into the table (`row_gather_apply`).
-/
import Idealize.ShloMosaic.PureOps.Ideal
import Idealize.ShloMosaic.Lib.ValueIdx

noncomputable section

open scoped BigOperators

namespace Cert.Lib.ScatterAdd

open Idealize.ShloMosaic Idealize.ShloMosaic.ValueIdx

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## `x.at[r, c].add(v)` -/

/-- The dimension numbers of `x.at[r, c].add(v)`: operand `[M, K]`, scatter indices `[E, 2]`, updates `[E]`. -/
abbrev pairDims (M K E : Nat) (wf : ScatterDims.WF ⟨2, ![M, K]⟩ ⟨2, ![E, 2]⟩ ⟨1, ![E]⟩ [] [0, 1] [0, 1] 1) :
    ScatterDims ⟨2, ![M, K]⟩ ⟨2, ![E, 2]⟩ ⟨1, ![E]⟩ where
  updateWindowDims := []
  insertedWindowDims := [0, 1]
  scatterDimsToOperandDims := [0, 1]
  indexVectorDim := 1
  wf := wf

section Pair
variable {M K E w : Nat} (wf : ScatterDims.WF ⟨2, ![M, K]⟩ ⟨2, ![E, 2]⟩ ⟨1, ![E]⟩ [] [0, 1] [0, 1] 1)

/-- Both operand axes are inserted: an update has no window, its window coordinate is `0` on each. -/
theorem pair_window (j : (⟨1, ![E]⟩ : Shape).Idx) (a : Fin 2) : (pairDims M K E wf).window j a = 0 := by
  unfold ScatterDims.window
  rw [dif_neg]
  intro h
  have : a ∉ [(0 : Fin 2), 1] := (List.mem_filter.1 h).2 |> fun h' => by simpa using h'
  match a with
  | ⟨0, _⟩ => exact this (by simp)
  | ⟨1, _⟩ => exact this (by simp)

/-- The start on the row axis is entry `e`'s first word, read signed. -/
theorem pair_start0 (e : Fin E) (idx : IVec ⟨2, ![E, 2]⟩ w) :
    (pairDims M K E wf).start (ix1 e) idx (0 : Fin 2) = (idx (ix2 e (0 : Fin 2))).toInt := by
  unfold ScatterDims.start
  rw [dif_pos (show (0 : Fin 2) ∈ (pairDims M K E wf).scatterDimsToOperandDims from by simp)]
  have hsi : (pairDims M K E wf).siIdx (ix1 e) ⟨List.idxOf (0 : Fin 2) (pairDims M K E wf).scatterDimsToOperandDims,
      List.idxOf_lt_length_iff.2 (by simp)⟩ = ix2 e (0 : Fin 2) := by
    funext b; refine Fin.ext ?_
    match b with
    | ⟨0, _⟩ => rfl
    | ⟨1, _⟩ => rfl
  rw [hsi]

/-- The start on the column axis is entry `e`'s second word, read signed. -/
theorem pair_start1 (e : Fin E) (idx : IVec ⟨2, ![E, 2]⟩ w) :
    (pairDims M K E wf).start (ix1 e) idx (1 : Fin 2) = (idx (ix2 e (1 : Fin 2))).toInt := by
  unfold ScatterDims.start
  rw [dif_pos (show (1 : Fin 2) ∈ (pairDims M K E wf).scatterDimsToOperandDims from by simp)]
  have hsi : (pairDims M K E wf).siIdx (ix1 e) ⟨List.idxOf (1 : Fin 2) (pairDims M K E wf).scatterDimsToOperandDims,
      List.idxOf_lt_length_iff.2 (by simp)⟩ = ix2 e (1 : Fin 2) := by
    funext b; refine Fin.ext ?_
    match b with
    | ⟨0, _⟩ => rfl
    | ⟨1, _⟩ => rfl
  rw [hsi]

/-- Update `e` lands on `y` exactly when its two words, read signed, are `y`'s coordinates. -/
theorem pair_resultIdx?_eq_some_iff (e : Fin E) (idx : IVec ⟨2, ![E, 2]⟩ w) (y : (⟨2, ![M, K]⟩ : Shape).Idx) :
    (pairDims M K E wf).resultIdx? (ix1 e) idx = some y
      ↔ (idx (ix2 e (0 : Fin 2))).toInt = ((y 0).val : ℤ) ∧ (idx (ix2 e (1 : Fin 2))).toInt = ((y 1).val : ℤ) := by
  unfold ScatterDims.resultIdx?
  have h0 := pair_start0 wf e idx
  have h1 := pair_start1 wf e idx
  have w0 := pair_window wf (ix1 e) (0 : Fin 2)
  have w1 := pair_window wf (ix1 e) (1 : Fin 2)
  constructor
  · intro h
    split at h
    · rename_i hin
      have hy := Option.some.inj h
      have e0 := congrArg (fun z : (⟨2, ![M, K]⟩ : Shape).Idx => (z 0).val) hy
      have e1 := congrArg (fun z : (⟨2, ![M, K]⟩ : Shape).Idx => (z 1).val) hy
      simp only at e0 e1
      have b0 := hin 0
      have b1 := hin 1
      rw [h0, w0] at b0 e0
      rw [h1, w1] at b1 e1
      constructor <;> omega
    · exact absurd h (by simp)
  · rintro ⟨e0, e1⟩
    have key : ∀ a : Fin 2, (pairDims M K E wf).start (ix1 e) idx a + ((pairDims M K E wf).window (ix1 e) a : ℤ) = ((y a).val : ℤ) := by
      intro a
      match a with
      | ⟨0, _⟩ =>
        show (pairDims M K E wf).start (ix1 e) idx 0 + ((pairDims M K E wf).window (ix1 e) 0 : ℤ) = ((y 0).val : ℤ)
        rw [h0, w0, e0]; simp
      | ⟨1, _⟩ =>
        show (pairDims M K E wf).start (ix1 e) idx 1 + ((pairDims M K E wf).window (ix1 e) 1 : ℤ) = ((y 1).val : ℤ)
        rw [h1, w1, e1]; simp
    have hin : ∀ a : Fin 2, 0 ≤ (pairDims M K E wf).start (ix1 e) idx a + ((pairDims M K E wf).window (ix1 e) a : ℤ)
        ∧ (pairDims M K E wf).start (ix1 e) idx a + ((pairDims M K E wf).window (ix1 e) a : ℤ) < ((⟨2, ![M, K]⟩ : Shape).size a : ℤ) :=
      fun a => by rw [key a]; exact ⟨Int.natCast_nonneg _, by exact_mod_cast (y a).isLt⟩
    rw [dif_pos hin]
    refine congrArg some ?_
    funext a; refine Fin.ext ?_
    show ((pairDims M K E wf).start (ix1 e) idx a + ((pairDims M K E wf).window (ix1 e) a : ℤ)).toNat = (y a).val
    rw [key a]; simp

/-- THE PAIR SCATTER-ADD READ AT `y`. -/
theorem pair_scatterAdd_apply
    (x : (⟨2, ![M, K]⟩ : Shape).Idx → EReal) (idx : IVec ⟨2, ![E, 2]⟩ w) (upd : (⟨1, ![E]⟩ : Shape).Idx → EReal)
    (y : (⟨2, ![M, K]⟩ : Shape).Idx) :
    Ideal.hostScatterAdd (pairDims M K E wf) x idx upd y
      = x y + ∑ e : Fin E, if (idx (ix2 e (0 : Fin 2))).toInt = ((y 0).val : ℤ) ∧ (idx (ix2 e (1 : Fin 2))).toInt = ((y 1).val : ℤ)
          then upd (ix1 e) else 0 := by
  unfold Ideal.hostScatterAdd
  refine congrArg (x y + ·) ?_
  rw [Finset.sum_filter, sum_idx1]
  refine Finset.sum_congr rfl fun e _ => ?_
  exact if_congr (pair_resultIdx?_eq_some_iff wf e idx y) rfl rfl

end Pair

/-! ## A segment sum of rows -/

/-- The dimension numbers of a segment sum of rows: operand `[M, N]`, scatter indices `[E, 1]`, updates `[E, N]`. -/
abbrev rowDims (M N E : Nat) (wf : ScatterDims.WF ⟨2, ![M, N]⟩ ⟨2, ![E, 1]⟩ ⟨2, ![E, N]⟩ [1] [0] [0] 1) :
    ScatterDims ⟨2, ![M, N]⟩ ⟨2, ![E, 1]⟩ ⟨2, ![E, N]⟩ where
  updateWindowDims := [1]
  insertedWindowDims := [0]
  scatterDimsToOperandDims := [0]
  indexVectorDim := 1
  wf := wf

section Row
variable {M N E w : Nat} (wf : ScatterDims.WF ⟨2, ![M, N]⟩ ⟨2, ![E, 1]⟩ ⟨2, ![E, N]⟩ [1] [0] [0] 1)

/-- The row axis is inserted: no window coordinate on it. -/
theorem row_window0 (j : (⟨2, ![E, N]⟩ : Shape).Idx) : (rowDims M N E wf).window j (0 : Fin 2) = 0 := by
  unfold ScatterDims.window
  rw [dif_neg]
  intro h
  have : (0 : Fin 2) ∉ [(0 : Fin 2)] := (List.mem_filter.1 h).2 |> fun h' => by simpa using h'
  exact this (by simp)

/-- The column axis is the update's window axis: the window coordinate is the update's column. -/
theorem row_window1 (e : Fin E) (n : Fin N) : (rowDims M N E wf).window (ix2 e n) (1 : Fin 2) = n.val := by
  unfold ScatterDims.window
  rw [dif_pos (show (1 : Fin 2) ∈ (rowDims M N E wf).sKept from List.mem_filter.2 ⟨List.mem_finRange _, by simp⟩)]
  rfl

/-- The start on the row axis is entry `e`'s word, read signed … -/
theorem row_start0 (e : Fin E) (n : Fin N) (idx : IVec ⟨2, ![E, 1]⟩ w) :
    (rowDims M N E wf).start (ix2 e n) idx (0 : Fin 2) = (idx (ix2 e (0 : Fin 1))).toInt := by
  unfold ScatterDims.start
  rw [dif_pos (show (0 : Fin 2) ∈ (rowDims M N E wf).scatterDimsToOperandDims from by simp)]
  have hsi : (rowDims M N E wf).siIdx (ix2 e n) ⟨List.idxOf (0 : Fin 2) (rowDims M N E wf).scatterDimsToOperandDims,
      List.idxOf_lt_length_iff.2 (by simp)⟩ = ix2 e (0 : Fin 1) := by
    funext b; refine Fin.ext ?_
    match b with
    | ⟨0, _⟩ => rfl
    | ⟨1, _⟩ => rfl
  rw [hsi]

/-- … and no start index names the column axis. -/
theorem row_start1 (j : (⟨2, ![E, N]⟩ : Shape).Idx) (idx : IVec ⟨2, ![E, 1]⟩ w) :
    (rowDims M N E wf).start j idx (1 : Fin 2) = 0 := by
  unfold ScatterDims.start
  rw [dif_neg (show (1 : Fin 2) ∉ (rowDims M N E wf).scatterDimsToOperandDims from by simp)]

/-- Update `(e, n)` lands on `y` exactly when `e`'s word, read signed, is `y`'s row and `n` is `y`'s column. -/
theorem row_resultIdx?_eq_some_iff (e : Fin E) (n : Fin N) (idx : IVec ⟨2, ![E, 1]⟩ w) (y : (⟨2, ![M, N]⟩ : Shape).Idx) :
    (rowDims M N E wf).resultIdx? (ix2 e n) idx = some y
      ↔ (idx (ix2 e (0 : Fin 1))).toInt = ((y 0).val : ℤ) ∧ n.val = (y 1).val := by
  unfold ScatterDims.resultIdx?
  have h0 := row_start0 wf e n idx
  have h1 := row_start1 wf (ix2 e n) idx
  have w0 := row_window0 wf (ix2 e n)
  have w1 := row_window1 wf e n
  constructor
  · intro h
    split at h
    · rename_i hin
      have hy := Option.some.inj h
      have e0 := congrArg (fun z : (⟨2, ![M, N]⟩ : Shape).Idx => (z 0).val) hy
      have e1 := congrArg (fun z : (⟨2, ![M, N]⟩ : Shape).Idx => (z 1).val) hy
      simp only at e0 e1
      have b0 := hin 0
      have b1 := hin 1
      rw [h0, w0] at b0 e0
      rw [h1, w1] at b1 e1
      constructor <;> omega
    · exact absurd h (by simp)
  · rintro ⟨e0, e1⟩
    have key : ∀ a : Fin 2, (rowDims M N E wf).start (ix2 e n) idx a + ((rowDims M N E wf).window (ix2 e n) a : ℤ) = ((y a).val : ℤ) := by
      intro a
      match a with
      | ⟨0, _⟩ =>
        show (rowDims M N E wf).start (ix2 e n) idx 0 + ((rowDims M N E wf).window (ix2 e n) 0 : ℤ) = ((y 0).val : ℤ)
        rw [h0, w0, e0]; simp
      | ⟨1, _⟩ =>
        show (rowDims M N E wf).start (ix2 e n) idx 1 + ((rowDims M N E wf).window (ix2 e n) 1 : ℤ) = ((y 1).val : ℤ)
        rw [h1, w1, e1]; simp
    have hin : ∀ a : Fin 2, 0 ≤ (rowDims M N E wf).start (ix2 e n) idx a + ((rowDims M N E wf).window (ix2 e n) a : ℤ)
        ∧ (rowDims M N E wf).start (ix2 e n) idx a + ((rowDims M N E wf).window (ix2 e n) a : ℤ) < ((⟨2, ![M, N]⟩ : Shape).size a : ℤ) :=
      fun a => by rw [key a]; exact ⟨Int.natCast_nonneg _, by exact_mod_cast (y a).isLt⟩
    rw [dif_pos hin]
    refine congrArg some ?_
    funext a; refine Fin.ext ?_
    show ((rowDims M N E wf).start (ix2 e n) idx a + ((rowDims M N E wf).window (ix2 e n) a : ℤ)).toNat = (y a).val
    rw [key a]; simp

/-- The row scatter-add read at the entry `(p, q)`. -/
theorem row_scatterAdd_apply_ix
    (x : (⟨2, ![M, N]⟩ : Shape).Idx → EReal) (idx : IVec ⟨2, ![E, 1]⟩ w) (upd : (⟨2, ![E, N]⟩ : Shape).Idx → EReal)
    (p : Fin M) (q : Fin N) :
    Ideal.hostScatterAdd (rowDims M N E wf) x idx upd (ix2 p q)
      = x (ix2 p q) + ∑ e : Fin E, if (idx (ix2 e (0 : Fin 1))).toInt = ((p.val : ℕ) : ℤ) then upd (ix2 e q) else 0 := by
  unfold Ideal.hostScatterAdd
  refine congrArg (x (ix2 p q) + ·) ?_
  rw [Finset.sum_filter, sum_idx2]
  refine Finset.sum_congr rfl fun e _ => ?_
  have hstep : ∀ n : Fin N, (if (rowDims M N E wf).resultIdx? (ix2 e n) idx = some (ix2 p q) then upd (ix2 e n) else 0)
      = if n = q then (if (idx (ix2 e (0 : Fin 1))).toInt = ((p.val : ℕ) : ℤ) then upd (ix2 e n) else 0) else 0 := by
    intro n
    by_cases hn : n = q
    · rw [if_pos hn]
      exact if_congr ((row_resultIdx?_eq_some_iff wf e n idx (ix2 p q)).trans
        ⟨fun h => h.1, fun h => ⟨h, congrArg Fin.val hn⟩⟩) rfl rfl
    · rw [if_neg hn, if_neg]
      intro h
      exact hn (Fin.ext ((row_resultIdx?_eq_some_iff wf e n idx (ix2 p q)).1 h).2)
  simp_rw [hstep]
  rw [Finset.sum_ite_eq' Finset.univ q]
  simp

/-- THE ROW SCATTER-ADD READ AT `y`. -/
theorem row_scatterAdd_apply
    (x : (⟨2, ![M, N]⟩ : Shape).Idx → EReal) (idx : IVec ⟨2, ![E, 1]⟩ w) (upd : (⟨2, ![E, N]⟩ : Shape).Idx → EReal)
    (y : (⟨2, ![M, N]⟩ : Shape).Idx) :
    Ideal.hostScatterAdd (rowDims M N E wf) x idx upd y
      = x y + ∑ e : Fin E, if (idx (ix2 e (0 : Fin 1))).toInt = ((y 0).val : ℤ) then upd (ix2 e (y 1)) else 0 := by
  obtain ⟨p, q, rfl⟩ : ∃ (p : Fin M) (q : Fin N), y = ix2 p q := ⟨y 0, y 1, eq_ix2 y⟩
  exact row_scatterAdd_apply_ix wf x idx upd p q

end Row

/-! ## `table[idx]` of a rank-2 table -/

/-- The dimension numbers of `table[idx]` for a table `[N, D]` and `idx : [R]`: start indices `[R, 1]`, result `[R, D]`. -/
abbrev rowGatherDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section RowGather
variable {α : Type} {N D R w : Nat}
  (wf : GatherDims.WF ⟨2, ![N, D]⟩ ⟨2, ![R, 1]⟩ ⟨2, ![R, D]⟩ [1] [0] [] [0] [] 1 ![1, D])

/-- On the table's row axis the operand coordinate is the start word, read signed and clamped (the axis is collapsed:
    nothing is added). -/
theorem gather_row_axis (idx : IVec ⟨2, ![R, 1]⟩ w) (r : Fin R) (j : Fin D) :
    (rowGatherDims N D R wf).start (ix2 r j) idx (0 : Fin 2) + (rowGatherDims N D R wf).batchCoord (ix2 r j) (0 : Fin 2)
      + (rowGatherDims N D R wf).offCoord (ix2 r j) (0 : Fin 2) = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N D R wf).startIndexMap from List.mem_singleton.mpr rfl)]
  have hsi : (rowGatherDims N D R wf).siIdx (ix2 r j) ⟨List.idxOf (0 : Fin 2) (rowGatherDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand coordinate is the result's own column (no start index names the axis). -/
theorem gather_col_axis (idx : IVec ⟨2, ![R, 1]⟩ w) (r : Fin R) (j : Fin D) :
    (rowGatherDims N D R wf).start (ix2 r j) idx (1 : Fin 2) + (rowGatherDims N D R wf).batchCoord (ix2 r j) (1 : Fin 2)
      + (rowGatherDims N D R wf).offCoord (ix2 r j) (1 : Fin 2) = j.val := by
  rw [GatherDims.batchCoord_eq_zero _ _ _ List.not_mem_nil]
  have hs : (rowGatherDims N D R wf).start (ix2 r j) idx (1 : Fin 2) = 0 := by
    unfold GatherDims.start
    rw [dif_neg (show (1 : Fin 2) ∉ (rowGatherDims N D R wf).startIndexMap from by simp)]
  have ho : (rowGatherDims N D R wf).offCoord (ix2 r j) (1 : Fin 2) = j.val := by
    unfold GatherDims.offCoord
    rw [dif_pos (show (1 : Fin 2) ∈ (rowGatherDims N D R wf).sKept from (GatherDims.mem_sKept _ _).mpr ⟨by simp, List.not_mem_nil⟩)]
    rfl
  rw [hs, ho]
  simp

end RowGather

/-- THE ROW GATHER READ AT `(r, j)`: column `j` of the row the start word names, read signed and clamped. -/
theorem row_gather_apply {α : Type} {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowGatherDims N D R wf) x idx (ix2 r j)
      = x (ix2 (⟨min (idx (ix2 r (0 : Fin 1))).toInt.toNat (N - 1), by omega⟩ : Fin N) j) := by
  unfold Host.gather
  refine congrArg x ?_
  funext a
  refine Fin.ext ?_
  match a with
  | ⟨0, _⟩ => exact gather_row_axis wf idx r j
  | ⟨1, _⟩ => exact gather_col_axis wf idx r j

end Cert.Lib.ScatterAdd

end
-- ==== Proof.KernelHost.lean ====
/-
  What the kernel's region finds in its two operand arrays: each is the dense matrix of one coordinate list. The host
  program sorts the entries by flattened position first; a sort only permutes the entries, and a sum over all
  entries does not depend on their order.

  The two operands are one host computation at two extents, so it is stated once over variables (`hostProgram`: the
  count of entries `E`, the extents `M`, `K` and their words) and read at an entry of its result
  (`hostProgram_apply`). The sort is never looked into: of the sorted positions only this is used, that position `e`
  holds the word of `σ e` for a bijection `σ` of the positions (`perm`, `sort2_snd_apply`, `perm_bijective`). With
  fewer than 2³¹ entries such a word is non-negative and in range, so the wrap against the count and the take's
  clamp leave it alone and each take reads its operand at `σ e` (`takeV_apply`); the scatter's sum over `e` of a term
  in `σ e` is then the sum over `e` of the term in `e`.
-/
import proofs.«404442_j80616536146653_3_alg».proof.Proof.Gen.KernelIdeal.Frame
import proofs.«404442_j80616536146653_3_alg».proof.Proof.Spec
import proofs.«404442_j80616536146653_3_alg».proof.Proof.LibScatterAdd
import Idealize.ShloMosaic.Lib.StableHlo.Run
import Idealize.ShloMosaic.Lib.StableHlo.Predicate
import Idealize.ShloMosaic.Lib.Pipeline.Value
import Idealize.ShloMosaic.PureOps.Ideal.Laws
import Mathlib.Algebra.BigOperators.Group.Finset.Defs

noncomputable section

open scoped BigOperators

namespace Cert.KernelIdeal.HostValue

section Generic

open Idealize.ShloMosaic Idealize.ShloMosaic.ValueIdx Idealize.ShloMosaic.StableHlo.Predicate

variable {E : Nat}

/-- The two spellings of a rank-1 index. -/
theorem ix1_eq_ofFin (e : Fin E) : (ix1 e : (⟨1, ![E]⟩ : Shape).Idx) = Shape.Idx.ofFin e := by
  funext d; match d with | ⟨0, _⟩ => rfl

/-- The two spellings of row `e` of a one-column array. -/
theorem ixP_eq_ix2 (e : Fin E) : (ixP e : (⟨2, ![E, 1]⟩ : Shape).Idx) = ix2 e (0 : Fin 1) := by
  funext d; match d with | ⟨0, _⟩ => rfl | ⟨1, _⟩ => rfl

/-! ## An index read as jnp reads it, along a vector -/

/-- `w < 0 ? w + n : w` at every entry. -/
def wrapV {s : Shape} (h0 : (⟨0, ![]⟩ : Shape).BroadcastsInDim s ![]) (n : BitVec 32) (v : IVec s 32) : IVec s 32 :=
  select (cmpi .slt v (broadcastInDim s ![] h0 (constantI ⟨0, ![]⟩ 32 0#32)))
    (addi v (broadcastInDim s ![] h0 (constantI ⟨0, ![]⟩ 32 n))) v

theorem wrapV_apply {s : Shape} (h0 : (⟨0, ![]⟩ : Shape).BroadcastsInDim s ![]) (n : BitVec 32) (v : IVec s 32) (i : s.Idx) :
    wrapV h0 n v i = Cert.Spec.wrapW n (v i) := rfl

/-! ## Two operations named, so that a term over them is read argument by argument -/

/-- A two-piece concatenation with its pieces as arguments. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concat2_fold {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = concat2 t a s₁ s₂ h x₁ x₂ := rfl

/-- The second operand of a two-operand sort of vectors, after the sort. -/
def sortedOrder (cmp : BitVec 32 × BitVec 32 → BitVec 32 × BitVec 32 → BitVec 1) (key pos : IVec ⟨1, ![E]⟩ 32) :
    IVec ⟨1, ![E]⟩ 32 :=
  (Host.sort2 ⟨1, ![E]⟩ 0 cmp key pos).2

theorem sortedOrder_fold (cmp : BitVec 32 × BitVec 32 → BitVec 32 × BitVec 32 → BitVec 1) (key pos : IVec ⟨1, ![E]⟩ 32) :
    (Host.sort2 ⟨1, ![E]⟩ 0 cmp key pos).2 = sortedOrder cmp key pos := rfl

/-! ## The sort -/

/-- Where the stable sort of the keys, carried with their positions, takes position `e` from. -/
def perm (cmp : BitVec 32 × BitVec 32 → BitVec 32 × BitVec 32 → BitVec 1) (key : IVec ⟨1, ![E]⟩ 32) : Fin E → Fin E :=
  sortedFrom (fun k k' => cmp (key (Shape.Idx.ofFin k), BitVec.ofNat 32 k.val) (key (Shape.Idx.ofFin k'), BitVec.ofNat 32 k'.val) == 1#1)

theorem perm_bijective (cmp : BitVec 32 × BitVec 32 → BitVec 32 × BitVec 32 → BitVec 1) (key : IVec ⟨1, ![E]⟩ 32) :
    Function.Bijective (perm cmp key) :=
  ⟨sortedFrom_injective _, sortedFrom_surjective _⟩

/-- The positions' array after the sort holds, at `j`, the position `perm` names, as a word. -/
theorem sort2_snd_apply (cmp : BitVec 32 × BitVec 32 → BitVec 32 × BitVec 32 → BitVec 1) (key : IVec ⟨1, ![E]⟩ 32)
    (j : (⟨1, ![E]⟩ : Shape).Idx) :
    sortedOrder cmp key (iotaInDim ⟨1, ![E]⟩ 32 0) j = BitVec.ofNat 32 (perm cmp key (j 0)).val := by
  unfold sortedOrder Host.sort2 perm
  simp [iotaInDim]

/-! ## The take -/

/-- The dimension numbers of `x[idx]` for a vector `x : [E]` and `idx : [E]` kept as a column. -/
abbrev takeDims1 (E : Nat) (wf : GatherDims.WF ⟨1, ![E]⟩ ⟨2, ![E, 1]⟩ ⟨1, ![E]⟩ [] [0] [] [0] [] 1 ![1]) :
    GatherDims ⟨1, ![E]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[order]` as the host program spells it: the positions wrapped against their count `nE`, laid as a column, the
    take-shaped gather. -/
def takeV {α : Type} (wf : GatherDims.WF ⟨1, ![E]⟩ ⟨2, ![E, 1]⟩ ⟨1, ![E]⟩ [] [0] [] [0] [] 1 ![1])
    (h0 : (⟨0, ![]⟩ : Shape).BroadcastsInDim ⟨1, ![E]⟩ ![]) (hb : (⟨1, ![E]⟩ : Shape).BroadcastsInDim ⟨2, ![E, 1]⟩ ![0])
    (nE : BitVec 32) (x : (⟨1, ![E]⟩ : Shape).Idx → α) (order : IVec ⟨1, ![E]⟩ 32) : (⟨1, ![E]⟩ : Shape).Idx → α :=
  Host.gather (takeDims1 E wf) x (broadcastInDim ⟨2, ![E, 1]⟩ ![0] hb (wrapV h0 nE order))

/-- Where the positions are `σ`'s values as words, fewer than 2³¹ of them, the take reads `x` at `σ e`: the wrap and
    the gather's clamp find the position already in range. -/
theorem takeV_apply {α : Type} (wf : GatherDims.WF ⟨1, ![E]⟩ ⟨2, ![E, 1]⟩ ⟨1, ![E]⟩ [] [0] [] [0] [] 1 ![1])
    (h0 : (⟨0, ![]⟩ : Shape).BroadcastsInDim ⟨1, ![E]⟩ ![]) (hb : (⟨1, ![E]⟩ : Shape).BroadcastsInDim ⟨2, ![E, 1]⟩ ![0])
    (nE : BitVec 32) (x : (⟨1, ![E]⟩ : Shape).Idx → α) (order : IVec ⟨1, ![E]⟩ 32) (σ : Fin E → Fin E) (hE : E ≤ 2 ^ 31)
    (hord : ∀ e : Fin E, order (Shape.Idx.ofFin e) = BitVec.ofNat 32 (σ e).val) (e : Fin E) :
    takeV wf h0 hb nE x order (Shape.Idx.ofFin e) = x (Shape.Idx.ofFin (σ e)) := by
  have hpos : 0 < E := lt_of_le_of_lt (Nat.zero_le _) e.isLt
  have hlt : (σ e).val < 2 ^ 31 := lt_of_lt_of_le (σ e).isLt hE
  have hi : (BitVec.ofNat 32 (σ e).val).toInt = ((σ e).val : ℤ) := toInt_ofNat_small _ hlt
  unfold takeV
  refine (gather_take (takeDims1 E wf) rfl rfl rfl rfl x _ e hpos).trans ?_
  refine congrArg x (congrArg Shape.Idx.ofFin (Fin.ext ?_))
  show min (broadcastInDim ⟨2, ![E, 1]⟩ ![0] hb (wrapV h0 nE order) (ixP e)).toInt.toNat (E - 1) = (σ e).val
  rw [bcast_col1 hb, wrapV_apply, hord, Cert.Spec.wrapW_of_nonneg _ _ (by rw [hi]; exact Int.natCast_nonneg _), hi,
    Int.toNat_natCast]
  have := (σ e).isLt
  omega

/-! ## The coordinate rows of the list -/

/-- Row `r` of the coordinate array as a vector: the slice `[r : r + 1]` reshaped. -/
def coordRow (r : Nat) (hs : (⟨2, ![2, E]⟩ : Shape).Slices ![r, 0] ⟨2, ![1, E]⟩)
    (hc : (⟨2, ![1, E]⟩ : Shape).ShapeCasts ⟨1, ![E]⟩) (ind : IVec ⟨2, ![2, E]⟩ 32) : IVec ⟨1, ![E]⟩ 32 :=
  shapeCast ⟨1, ![E]⟩ (extractStridedSlice ⟨2, ![1, E]⟩ ![r, 0] ind hs) hc

theorem coordRow_apply (r : Fin 2) (hs : (⟨2, ![2, E]⟩ : Shape).Slices ![r.val, 0] ⟨2, ![1, E]⟩)
    (hc : (⟨2, ![1, E]⟩ : Shape).ShapeCasts ⟨1, ![E]⟩) (ind : IVec ⟨2, ![2, E]⟩ 32) (e : Fin E) :
    coordRow r.val hs hc ind (Shape.Idx.ofFin e) = ind (ix2 r e) := by
  unfold coordRow
  rw [shapeCast_apply _ hc (Shape.Idx.ofFin e) (ix2 (0 : Fin 1) e)
    (by rw [Shape.rowMajor_val_two, Shape.rowMajor_val_one]; show 0 * E + e.val = e.val; omega)]
  exact extractStridedSlice_apply _ _ hs _ (ix2 r e) (fun a => match a with
    | ⟨0, _⟩ => by show r.val = r.val + 0; omega
    | ⟨1, _⟩ => by show e.val = 0 + e.val; omega)

/-! ## The densified list -/

/-- The host program's array from the two coordinate vectors, the values and the sorted positions: each of the three
    taken at the positions, the coordinates wrapped against their extents, laid as the two columns of the scatter's
    index array, the values accumulated into zeros. -/
def hostDense (M K : Nat) (gwf : GatherDims.WF ⟨1, ![E]⟩ ⟨2, ![E, 1]⟩ ⟨1, ![E]⟩ [] [0] [] [0] [] 1 ![1])
    (swf : ScatterDims.WF ⟨2, ![M, K]⟩ ⟨2, ![E, 2]⟩ ⟨1, ![E]⟩ [] [0, 1] [0, 1] 1)
    (h0 : (⟨0, ![]⟩ : Shape).BroadcastsInDim ⟨1, ![E]⟩ ![]) (hb : (⟨1, ![E]⟩ : Shape).BroadcastsInDim ⟨2, ![E, 1]⟩ ![0])
    (h0MK : (⟨0, ![]⟩ : Shape).BroadcastsInDim ⟨2, ![M, K]⟩ ![])
    (hcat : Shape.Concatenates [(⟨2, ![E, 1]⟩ : Shape), ⟨2, ![E, 1]⟩] ⟨2, ![E, 2]⟩ 1) (hbits : FTy.bits .bf16 < FTy.bits .f32)
    (nE nM nK : BitVec 32) (rows cols : IVec ⟨1, ![E]⟩ 32) (vals : (⟨1, ![E]⟩ : Shape).Idx → EReal) (order : IVec ⟨1, ![E]⟩ 32) :
    (⟨2, ![M, K]⟩ : Shape).Idx → EReal :=
  truncf (F := Ideal) (φ := .f32) .bf16
    (Host.scatterAdd (F := Ideal) (φ := .f32) (Cert.Lib.ScatterAdd.pairDims M K E swf)
      (broadcastInDim ⟨2, ![M, K]⟩ ![] h0MK (constant (F := Ideal) ⟨0, ![]⟩ .f32 0x00000000#32))
      (concat2 ⟨2, ![E, 2]⟩ 1 ⟨2, ![E, 1]⟩ ⟨2, ![E, 1]⟩ hcat
        (broadcastInDim ⟨2, ![E, 1]⟩ ![0] hb (wrapV h0 nM (takeV gwf h0 hb nE rows order)))
        (broadcastInDim ⟨2, ![E, 1]⟩ ![0] hb (wrapV h0 nK (takeV gwf h0 hb nE cols order))))
      (takeV gwf h0 hb nE vals order)) hbits

/-- THE HOST ARRAY AT AN ENTRY: with the positions a bijection's values, the sum over the entries taken in the
    positions' order is the sum over the entries in their own order. -/
theorem hostDense_apply (M K : Nat) (gwf : GatherDims.WF ⟨1, ![E]⟩ ⟨2, ![E, 1]⟩ ⟨1, ![E]⟩ [] [0] [] [0] [] 1 ![1])
    (swf : ScatterDims.WF ⟨2, ![M, K]⟩ ⟨2, ![E, 2]⟩ ⟨1, ![E]⟩ [] [0, 1] [0, 1] 1)
    (h0 : (⟨0, ![]⟩ : Shape).BroadcastsInDim ⟨1, ![E]⟩ ![]) (hb : (⟨1, ![E]⟩ : Shape).BroadcastsInDim ⟨2, ![E, 1]⟩ ![0])
    (h0MK : (⟨0, ![]⟩ : Shape).BroadcastsInDim ⟨2, ![M, K]⟩ ![])
    (hcat : Shape.Concatenates [(⟨2, ![E, 1]⟩ : Shape), ⟨2, ![E, 1]⟩] ⟨2, ![E, 2]⟩ 1) (hbits : FTy.bits .bf16 < FTy.bits .f32)
    (nE nM nK : BitVec 32) (rows cols : IVec ⟨1, ![E]⟩ 32) (vals : (⟨1, ![E]⟩ : Shape).Idx → EReal) (order : IVec ⟨1, ![E]⟩ 32)
    (σ : Fin E → Fin E) (hσ : Function.Bijective σ) (hE : E ≤ 2 ^ 31)
    (hord : ∀ e : Fin E, order (Shape.Idx.ofFin e) = BitVec.ofNat 32 (σ e).val) (y : (⟨2, ![M, K]⟩ : Shape).Idx) :
    hostDense M K gwf swf h0 hb h0MK hcat hbits nE nM nK rows cols vals order y
      = ∑ e : Fin E,
          if (Cert.Spec.wrapW nM (rows (Shape.Idx.ofFin e))).toInt = ((y 0).val : ℤ)
              ∧ (Cert.Spec.wrapW nK (cols (Shape.Idx.ofFin e))).toInt = ((y 1).val : ℤ)
          then vals (Shape.Idx.ofFin e) else 0 := by
  unfold hostDense concat2
  rw [truncf_apply]
  show Ideal.hostScatterAdd (Cert.Lib.ScatterAdd.pairDims M K E swf) _ _ _ y = _
  rw [Cert.Lib.ScatterAdd.pair_scatterAdd_apply]
  have hz : broadcastInDim ⟨2, ![M, K]⟩ ![] h0MK (constant (F := Ideal) ⟨0, ![]⟩ .f32 0x00000000#32) y = 0 :=
    Ideal.ofBits_zero_f32
  rw [hz, zero_add]
  rw [← hσ.sum_comp (fun e : Fin E =>
    if (Cert.Spec.wrapW nM (rows (Shape.Idx.ofFin e))).toInt = ((y 0).val : ℤ)
        ∧ (Cert.Spec.wrapW nK (cols (Shape.Idx.ofFin e))).toInt = ((y 1).val : ℤ)
    then vals (Shape.Idx.ofFin e) else 0)]
  refine Finset.sum_congr rfl fun e _ => ?_
  have e0 : ∀ (a b : IVec ⟨2, ![E, 1]⟩ 32),
      concatenate ⟨2, ![E, 2]⟩ 1 [⟨⟨2, ![E, 1]⟩, a⟩, ⟨⟨2, ![E, 1]⟩, b⟩] hcat (ix2 e (0 : Fin 2)) = a (ixP e) := fun a b =>
    concatenate_pair_apply_left (1 : Fin 2) a b hcat (ix2 e (0 : Fin 2)) rfl (ixP e)
      (fun d => match d with | ⟨0, _⟩ => rfl | ⟨1, _⟩ => rfl)
  have e1 : ∀ (a b : IVec ⟨2, ![E, 1]⟩ 32),
      concatenate ⟨2, ![E, 2]⟩ 1 [⟨⟨2, ![E, 1]⟩, a⟩, ⟨⟨2, ![E, 1]⟩, b⟩] hcat (ix2 e (1 : Fin 2)) = b (ixP e) := fun a b =>
    concatenate_pair_apply_right (1 : Fin 2) a b hcat (ix2 e (1 : Fin 2)) rfl rfl (ixP e)
      (fun d => match d with | ⟨0, _⟩ => fun _ => rfl | ⟨1, _⟩ => fun h => absurd rfl h) rfl
  rw [e0, e1, bcast_col1 hb, bcast_col1 hb, wrapV_apply, wrapV_apply, ix1_eq_ofFin,
    takeV_apply gwf h0 hb nE rows order σ hE hord, takeV_apply gwf h0 hb nE cols order σ hE hord,
    takeV_apply gwf h0 hb nE vals order σ hE hord]

/-! ## The whole host program of one operand -/

/-- The coordinate rows, the key `row · nK + col`, the positions sorted by key, and the densified list. -/
def hostProgram (M K : Nat) (gwf : GatherDims.WF ⟨1, ![E]⟩ ⟨2, ![E, 1]⟩ ⟨1, ![E]⟩ [] [0] [] [0] [] 1 ![1])
    (swf : ScatterDims.WF ⟨2, ![M, K]⟩ ⟨2, ![E, 2]⟩ ⟨1, ![E]⟩ [] [0, 1] [0, 1] 1)
    (h0 : (⟨0, ![]⟩ : Shape).BroadcastsInDim ⟨1, ![E]⟩ ![]) (hb : (⟨1, ![E]⟩ : Shape).BroadcastsInDim ⟨2, ![E, 1]⟩ ![0])
    (h0MK : (⟨0, ![]⟩ : Shape).BroadcastsInDim ⟨2, ![M, K]⟩ ![])
    (hcat : Shape.Concatenates [(⟨2, ![E, 1]⟩ : Shape), ⟨2, ![E, 1]⟩] ⟨2, ![E, 2]⟩ 1) (hbits : FTy.bits .bf16 < FTy.bits .f32)
    (hs0 : (⟨2, ![2, E]⟩ : Shape).Slices ![0, 0] ⟨2, ![1, E]⟩) (hs1 : (⟨2, ![2, E]⟩ : Shape).Slices ![1, 0] ⟨2, ![1, E]⟩)
    (hc : (⟨2, ![1, E]⟩ : Shape).ShapeCasts ⟨1, ![E]⟩)
    (cmp : BitVec 32 × BitVec 32 → BitVec 32 × BitVec 32 → BitVec 1) (nE nM nK : BitVec 32)
    (ind : IVec ⟨2, ![2, E]⟩ 32) (val : (⟨1, ![E]⟩ : Shape).Idx → EReal) : (⟨2, ![M, K]⟩ : Shape).Idx → EReal :=
  hostDense M K gwf swf h0 hb h0MK hcat hbits nE nM nK (coordRow 0 hs0 hc ind) (coordRow 1 hs1 hc ind) val
    (sortedOrder cmp
      (addi (muli (coordRow 0 hs0 hc ind) (broadcastInDim ⟨1, ![E]⟩ ![] h0 (constantI ⟨0, ![]⟩ 32 nK))) (coordRow 1 hs1 hc ind))
      (iotaInDim ⟨1, ![E]⟩ 32 0))

/-- THE HOST PROGRAM'S ARRAY IS THE DENSE MATRIX of the coordinate list, for fewer than 2³¹ entries: the sort by key
    only fixes the order in which the entries are accumulated. -/
theorem hostProgram_apply (M K : Nat) (gwf : GatherDims.WF ⟨1, ![E]⟩ ⟨2, ![E, 1]⟩ ⟨1, ![E]⟩ [] [0] [] [0] [] 1 ![1])
    (swf : ScatterDims.WF ⟨2, ![M, K]⟩ ⟨2, ![E, 2]⟩ ⟨1, ![E]⟩ [] [0, 1] [0, 1] 1)
    (h0 : (⟨0, ![]⟩ : Shape).BroadcastsInDim ⟨1, ![E]⟩ ![]) (hb : (⟨1, ![E]⟩ : Shape).BroadcastsInDim ⟨2, ![E, 1]⟩ ![0])
    (h0MK : (⟨0, ![]⟩ : Shape).BroadcastsInDim ⟨2, ![M, K]⟩ ![])
    (hcat : Shape.Concatenates [(⟨2, ![E, 1]⟩ : Shape), ⟨2, ![E, 1]⟩] ⟨2, ![E, 2]⟩ 1) (hbits : FTy.bits .bf16 < FTy.bits .f32)
    (hs0 : (⟨2, ![2, E]⟩ : Shape).Slices ![0, 0] ⟨2, ![1, E]⟩) (hs1 : (⟨2, ![2, E]⟩ : Shape).Slices ![1, 0] ⟨2, ![1, E]⟩)
    (hc : (⟨2, ![1, E]⟩ : Shape).ShapeCasts ⟨1, ![E]⟩)
    (cmp : BitVec 32 × BitVec 32 → BitVec 32 × BitVec 32 → BitVec 1) (nE nM nK : BitVec 32)
    (ind : IVec ⟨2, ![2, E]⟩ 32) (val : (⟨1, ![E]⟩ : Shape).Idx → EReal) (hE : E ≤ 2 ^ 31) (y : (⟨2, ![M, K]⟩ : Shape).Idx) :
    hostProgram M K gwf swf h0 hb h0MK hcat hbits hs0 hs1 hc cmp nE nM nK ind val y
      = ∑ e : Fin E,
          if (Cert.Spec.wrapW nM (ind (ix2 (0 : Fin 2) e))).toInt = ((y 0).val : ℤ)
              ∧ (Cert.Spec.wrapW nK (ind (ix2 (1 : Fin 2) e))).toInt = ((y 1).val : ℤ)
          then val (ix1 e) else 0 := by
  unfold hostProgram
  rw [hostDense_apply M K gwf swf h0 hb h0MK hcat hbits nE nM nK _ _ val _ (perm cmp _) (perm_bijective cmp _) hE
    (fun e => sort2_snd_apply cmp _ (Shape.Idx.ofFin e))]
  refine Finset.sum_congr rfl fun e _ => ?_
  rw [show coordRow 0 hs0 hc ind (Shape.Idx.ofFin e) = ind (ix2 (0 : Fin 2) e) from coordRow_apply (0 : Fin 2) hs0 hc ind e,
    show coordRow 1 hs1 hc ind (Shape.Idx.ofFin e) = ind (ix2 (1 : Fin 2) e) from coordRow_apply (1 : Fin 2) hs1 hc ind e,
    ix1_eq_ofFin]

attribute [irreducible] perm sortedOrder

end Generic

open Cert.KernelIdeal Cert.KernelIdeal.Gen Idealize.ShloMosaic Idealize.ShloMosaic.TcCoe Idealize.SL.Sem

variable (m : (ℓ : Loc nD τ sig) → Buf (Elt Ideal) ℓ)

/-! ## The operations' term freed of the transports along the buffers' types

A typed reference moves contents between the value's type and its buffer's own type; at a literal reference the two are
one type and the transport is the identity. Each site is stated once over a variable operand. -/

/-- Contents sent to a buffer's own type and back are themselves. -/
theorem ofBuf_toBuf {T : BufTy} (x : StableHlo.TRef sig T) (v : T.Contents (Elt Ideal)) : x.ofBuf (x.toBuf v) = v := by
  obtain ⟨r, h, h2, h3⟩ := x
  subst h
  rfl

/-- Row 0 of the first coordinate array, as the program spells it. -/
theorem lhs_row0_clean (a0 : IVec S2x131072 32) (p1 p2 p3 q1 q2 q3 r1 r2 r3)
    (h : (S1x131072 : Shape).ShapeCasts main_call0_v1.ty.shape) :
    (StableHlo.TRef.of (T := ⟨S131072, .i32⟩) main_call0_v1 p1 p2 p3).ofBuf (Val := Elt Ideal) (fun i =>
        shapeCast main_call0_v1.ty.shape
          ((StableHlo.TRef.of (T := ⟨S1x131072, .i32⟩) main_call0_v0 q1 q2 q3).toBuf (Val := Elt Ideal)
            (extractStridedSlice S1x131072 ![0, 0]
              ((StableHlo.TRef.of (T := ⟨S2x131072, .i32⟩) main_arg0 r1 r2 r3).ofBuf (Val := Elt Ideal) a0) Gen.slices_S2x131072_S1x131072_0_0)) h i)
      = coordRow 0 Gen.slices_S2x131072_S1x131072_0_0 Gen.shapeCasts_S1x131072_S131072 a0 := by
  funext i
  rfl

/-- Row 1 of the first coordinate array. -/
theorem lhs_row1_clean (a0 : IVec S2x131072 32) (p1 p2 p3 q1 q2 q3 r1 r2 r3)
    (h : (S1x131072 : Shape).ShapeCasts main_call0_v3.ty.shape) :
    (StableHlo.TRef.of (T := ⟨S131072, .i32⟩) main_call0_v3 p1 p2 p3).ofBuf (Val := Elt Ideal) (fun i =>
        shapeCast main_call0_v3.ty.shape
          ((StableHlo.TRef.of (T := ⟨S1x131072, .i32⟩) main_call0_v2 q1 q2 q3).toBuf (Val := Elt Ideal)
            (extractStridedSlice S1x131072 ![1, 0]
              ((StableHlo.TRef.of (T := ⟨S2x131072, .i32⟩) main_arg0 r1 r2 r3).ofBuf (Val := Elt Ideal) a0) Gen.slices_S2x131072_S1x131072_1_0)) h i)
      = coordRow 1 Gen.slices_S2x131072_S1x131072_1_0 Gen.shapeCasts_S1x131072_S131072 a0 := by
  funext i
  rfl

/-- Row 0 of the second coordinate array. -/
theorem rhs_row0_clean (a0 : IVec S2x131072 32) (p1 p2 p3 q1 q2 q3 r1 r2 r3)
    (h : (S1x131072 : Shape).ShapeCasts main_call0_v46.ty.shape) :
    (StableHlo.TRef.of (T := ⟨S131072, .i32⟩) main_call0_v46 p1 p2 p3).ofBuf (Val := Elt Ideal) (fun i =>
        shapeCast main_call0_v46.ty.shape
          ((StableHlo.TRef.of (T := ⟨S1x131072, .i32⟩) main_call0_v45 q1 q2 q3).toBuf (Val := Elt Ideal)
            (extractStridedSlice S1x131072 ![0, 0]
              ((StableHlo.TRef.of (T := ⟨S2x131072, .i32⟩) main_arg2 r1 r2 r3).ofBuf (Val := Elt Ideal) a0) Gen.slices_S2x131072_S1x131072_0_0)) h i)
      = coordRow 0 Gen.slices_S2x131072_S1x131072_0_0 Gen.shapeCasts_S1x131072_S131072 a0 := by
  funext i
  rfl

/-- Row 1 of the second coordinate array. -/
theorem rhs_row1_clean (a0 : IVec S2x131072 32) (p1 p2 p3 q1 q2 q3 r1 r2 r3)
    (h : (S1x131072 : Shape).ShapeCasts main_call0_v48.ty.shape) :
    (StableHlo.TRef.of (T := ⟨S131072, .i32⟩) main_call0_v48 p1 p2 p3).ofBuf (Val := Elt Ideal) (fun i =>
        shapeCast main_call0_v48.ty.shape
          ((StableHlo.TRef.of (T := ⟨S1x131072, .i32⟩) main_call0_v47 q1 q2 q3).toBuf (Val := Elt Ideal)
            (extractStridedSlice S1x131072 ![1, 0]
              ((StableHlo.TRef.of (T := ⟨S2x131072, .i32⟩) main_arg2 r1 r2 r3).ofBuf (Val := Elt Ideal) a0) Gen.slices_S2x131072_S1x131072_1_0)) h i)
      = coordRow 1 Gen.slices_S2x131072_S1x131072_1_0 Gen.shapeCasts_S1x131072_S131072 a0 := by
  funext i
  rfl

/-- The first operand's values, read from their argument buffer. -/
theorem lhs_val_clean (v : S131072.Idx → EReal) (p1 p2 p3) :
    (StableHlo.TRef.of (T := ⟨S131072, .f32⟩) main_arg1 p1 p2 p3).ofBuf (Val := Elt Ideal) v = v := by
  funext i
  rfl

/-- The second operand's values. -/
theorem rhs_val_clean (v : S131072.Idx → EReal) (p1 p2 p3) :
    (StableHlo.TRef.of (T := ⟨S131072, .f32⟩) main_arg3 p1 p2 p3).ofBuf (Val := Elt Ideal) v = v := by
  funext i
  rfl

/-- The first operand's array, written to its buffer. -/
theorem lhs_top_clean (v : S8192x8192.Idx → EReal) (p1 p2 p3) :
    (StableHlo.TRef.of (T := ⟨S8192x8192, .bf16⟩) main_call0_v44 p1 p2 p3).toBuf (Val := Elt Ideal) v = v := by
  funext i
  rfl

/-- The second operand's array, written to its buffer. -/
theorem rhs_top_clean (v : S8192x2048.Idx → EReal) (p1 p2 p3) :
    (StableHlo.TRef.of (T := ⟨S8192x2048, .bf16⟩) main_call0_v89 p1 p2 p3).toBuf (Val := Elt Ideal) v = v := by
  funext i
  rfl

set_option maxHeartbeats 4000000 in
set_option maxRecDepth 16384 in
/-- The first operand's array is the host program of `(arg0, arg1)` at extents `8192 × 8192`: the operations, in
    order, are that term. -/
theorem V_lhs_term (c : Dev nD) :
    (V m c main_call0_v44 : Cert.Spec.SMK.Idx → EReal)
      = hostProgram 8192 8192 Gen.gather_S131072_S131072x1_S131072_n_0_n_n_0_1_1_wf
          Gen.scatter_S8192x8192_S131072x2_S131072_n_01_01_1_wf Gen.bcast_S_S131072 Gen.bcast_S131072_S131072x1_0
          Gen.bcast_S_S8192x8192 Gen.concatenates_S131072x1_S131072x1_S131072x2_d1 Gen.bitsLt_bf16_f32
          Gen.slices_S2x131072_S1x131072_0_0 Gen.slices_S2x131072_S1x131072_1_0 Gen.shapeCasts_S1x131072_S131072
          comparator_i32_i32_d0 131072#32 8192#32 8192#32
          (m ((c : Thread nD τ).loc main_arg0)) (m ((c : Thread nD τ).loc main_arg1)) := by
  dsimp only [Gen.V, Gen.hostOps0]
  simp (disch := decide) only [StableHlo.after_cons, StableHlo.after_nil, StableHlo.nullary_result', StableHlo.unary_result',
    StableHlo.binary_result', StableHlo.ternary_result', StableHlo.reshape_result', StableHlo.nullary_result_ne',
    StableHlo.unary_result_ne', StableHlo.binary_result_ne', StableHlo.ternary_result_ne', StableHlo.reshape_result_ne',
    concat2_fold, sortedOrder_fold, ofBuf_toBuf]
  rw [lhs_top_clean, lhs_row0_clean, lhs_row1_clean, lhs_val_clean]
  rfl

/-- The first operand as the region finds it: the dense `8192 × 8192` matrix of `(arg0, arg1)`. -/
theorem V_lhs (c : Dev nD) :
    (V m c main_call0_v44 : Cert.Spec.SMK.Idx → EReal)
      = Cert.Spec.dense 8192 8192 8192#32 8192#32 (m ((c : Thread nD τ).loc main_arg0)) (m ((c : Thread nD τ).loc main_arg1)) := by
  rw [V_lhs_term]
  funext y
  exact hostProgram_apply 8192 8192 _ _ _ _ _ _ _ _ _ _ _ _ _ _ _ _ (by norm_num) y

set_option maxHeartbeats 4000000 in
set_option maxRecDepth 16384 in
/-- The second operand's array is the host program of `(arg2, arg3)` at extents `8192 × 2048`. -/
theorem V_rhs_term (c : Dev nD) :
    (V m c main_call0_v89 : Cert.Spec.SKN.Idx → EReal)
      = hostProgram 8192 2048 Gen.gather_S131072_S131072x1_S131072_n_0_n_n_0_1_1_wf
          Gen.scatter_S8192x2048_S131072x2_S131072_n_01_01_1_wf Gen.bcast_S_S131072 Gen.bcast_S131072_S131072x1_0
          Gen.bcast_S_S8192x2048 Gen.concatenates_S131072x1_S131072x1_S131072x2_d1 Gen.bitsLt_bf16_f32
          Gen.slices_S2x131072_S1x131072_0_0 Gen.slices_S2x131072_S1x131072_1_0 Gen.shapeCasts_S1x131072_S131072
          comparator_i32_i32_d0 131072#32 8192#32 2048#32
          (m ((c : Thread nD τ).loc main_arg2)) (m ((c : Thread nD τ).loc main_arg3)) := by
  dsimp only [Gen.V, Gen.hostOps0]
  simp (disch := decide) only [StableHlo.after_cons, StableHlo.after_nil, StableHlo.nullary_result', StableHlo.unary_result',
    StableHlo.binary_result', StableHlo.ternary_result', StableHlo.reshape_result', StableHlo.nullary_result_ne',
    StableHlo.unary_result_ne', StableHlo.binary_result_ne', StableHlo.ternary_result_ne', StableHlo.reshape_result_ne',
    concat2_fold, sortedOrder_fold, ofBuf_toBuf]
  rw [rhs_top_clean, rhs_row0_clean, rhs_row1_clean, rhs_val_clean]
  rfl

/-- The second operand as the region finds it: the dense `8192 × 2048` matrix of `(arg2, arg3)`. -/
theorem V_rhs (c : Dev nD) :
    (V m c main_call0_v89 : Cert.Spec.SKN.Idx → EReal)
      = Cert.Spec.dense 8192 2048 8192#32 2048#32 (m ((c : Thread nD τ).loc main_arg2)) (m ((c : Thread nD τ).loc main_arg3)) := by
  rw [V_rhs_term]
  funext y
  exact hostProgram_apply 8192 2048 _ _ _ _ _ _ _ _ _ _ _ _ _ _ _ _ (by norm_num) y

end Cert.KernelIdeal.HostValue

end
-- ==== Proof.RefValue.lean ====
/-
  The reference's result as a function of its arguments: it densifies the second operand, and for every entry of the
  first adds the entry's value times a row of that dense matrix into a row of the result.
-/
import proofs.«404442_j80616536146653_3_alg».proof.Proof.Gen.ReferenceIdeal.Read
import proofs.«404442_j80616536146653_3_alg».proof.Proof.Spec
import proofs.«404442_j80616536146653_3_alg».proof.Proof.LibScatterAdd
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ## Where a stage reads its operand

A coordinate row of a `[2, E]` array is sliced out as `[1, E]` and flattened to `[E]`; entry `e` of the flat row `a`
is the array's element `(a, e)`. A flat `[E]` array is made a column `[E, 1]` whose row `e` is entry `e`. -/

/-- Entry `e` of the second operand's flattened first row is its element `(0, e)`. -/
theorem idx_v1_v2 (e : Fin 131072) : idx_main_v1 (idx_main_v2 (ix1 e)) = ix2 (0 : Fin 2) e := by
  funext a
  match a with
  | ⟨0, _⟩ => rfl
  | ⟨1, _⟩ => exact Fin.ext (Nat.mod_eq_of_lt e.isLt)

/-- Entry `e` of the second operand's flattened second row is its element `(1, e)`. -/
theorem idx_v3_v4 (e : Fin 131072) : idx_main_v3 (idx_main_v4 (ix1 e)) = ix2 (1 : Fin 2) e := by
  funext a
  match a with
  | ⟨0, _⟩ => rfl
  | ⟨1, _⟩ => exact Fin.ext (Nat.mod_eq_of_lt e.isLt)

/-- Entry `e` of the first operand's flattened second row is its element `(1, e)`. -/
theorem idx_v20_v21 (e : Fin 131072) : idx_main_v20 (idx_main_v21 (ix1 e)) = ix2 (1 : Fin 2) e := by
  funext a
  match a with
  | ⟨0, _⟩ => rfl
  | ⟨1, _⟩ => exact Fin.ext (Nat.mod_eq_of_lt e.isLt)

/-- Entry `e` of the first operand's flattened first row is its element `(0, e)`. -/
theorem idx_v31_v32 (e : Fin 131072) : idx_main_v31 (idx_main_v32 (ix1 e)) = ix2 (0 : Fin 2) e := by
  funext a
  match a with
  | ⟨0, _⟩ => rfl
  | ⟨1, _⟩ => exact Fin.ext (Nat.mod_eq_of_lt e.isLt)

/-- Row `e` of a column reads entry `e` of the flat array it was made from (one lemma per column of the program). -/
theorem idx_v15 (e : Fin 131072) : idx_main_v15 (ix2 e (0 : Fin 1)) = ix1 e := by
  funext a; match a with | ⟨0, _⟩ => rfl
theorem idx_v16 (e : Fin 131072) : idx_main_v16 (ix2 e (0 : Fin 1)) = ix1 e := by
  funext a; match a with | ⟨0, _⟩ => rfl
theorem idx_v19 (e : Fin 131072) : idx_main_v19 (ix2 e (0 : Fin 1)) = ix1 e := by
  funext a; match a with | ⟨0, _⟩ => rfl
theorem idx_v27 (e : Fin 131072) : idx_main_v27 (ix2 e (0 : Fin 1)) = ix1 e := by
  funext a; match a with | ⟨0, _⟩ => rfl
theorem idx_v34 (e : Fin 131072) : idx_main_v34 (ix2 e (0 : Fin 1)) = ix1 e := by
  funext a; match a with | ⟨0, _⟩ => rfl

/-- Entry `(e, j)` of the values broadcast along the columns reads row `e` of the values' column. -/
theorem idx_v29 (e : Fin 131072) (j : Fin 2048) : idx_main_v29 (ix2 e j) = ix2 e (0 : Fin 1) := by
  funext a
  match a with
  | ⟨0, _⟩ => rfl
  | ⟨1, _⟩ => rfl

/-! ## The wrapped coordinates -/

/-- The second operand's row coordinate of entry `e`, wrapped against the row extent. -/
theorem v9_apply (x2 : IVec S2x131072 32) (e : Fin 131072) :
    val_main_v9 (F := Ideal) x2 (ix1 e) = Cert.Spec.wrapW 8192#32 (x2 (ix2 (0 : Fin 2) e)) := by
  rw [val_main_v9_apply, val_main_v6_apply, val_main_v8_apply, val_main_v5_apply, val_main_c_apply,
    val_main_v7_apply, val_main_c_0_apply, val_main_v2_apply, val_main_v1_apply, idx_v1_v2]
  rfl

/-- The second operand's column coordinate of entry `e`, wrapped against the column extent. -/
theorem v14_apply (x2 : IVec S2x131072 32) (e : Fin 131072) :
    val_main_v14 (F := Ideal) x2 (ix1 e) = Cert.Spec.wrapW 2048#32 (x2 (ix2 (1 : Fin 2) e)) := by
  rw [val_main_v14_apply, val_main_v11_apply, val_main_v13_apply, val_main_v10_apply, val_main_c_1_apply,
    val_main_v12_apply, val_main_c_2_apply, val_main_v4_apply, val_main_v3_apply, idx_v3_v4]
  rfl

/-- The first operand's column coordinate of entry `e`, wrapped against the dense matrix's row extent. -/
theorem v26_apply (x0 : IVec S2x131072 32) (e : Fin 131072) :
    val_main_v26 (F := Ideal) x0 (ix1 e) = Cert.Spec.wrapW 8192#32 (x0 (ix2 (1 : Fin 2) e)) := by
  rw [val_main_v26_apply, val_main_v23_apply, val_main_v25_apply, val_main_v22_apply, val_main_c_3_apply,
    val_main_v24_apply, val_main_c_4_apply, val_main_v21_apply, val_main_v20_apply, idx_v20_v21]
  rfl

/-- The first operand's row coordinate of entry `e`, as it stands. -/
theorem v34_apply (x0 : IVec S2x131072 32) (e : Fin 131072) :
    val_main_v34 (F := Ideal) x0 (ix2 e (0 : Fin 1)) = x0 (ix2 (0 : Fin 2) e) := by
  rw [val_main_v34_apply, idx_v34, val_main_v32_apply, val_main_v31_apply, idx_v31_v32]

/-- The gather's start word of entry `e`. -/
theorem v27_apply (x0 : IVec S2x131072 32) (e : Fin 131072) :
    val_main_v27 (F := Ideal) x0 (ix2 e (0 : Fin 1)) = Cert.Spec.wrapW 8192#32 (x0 (ix2 (1 : Fin 2) e)) := by
  rw [val_main_v27_apply, idx_v27, v26_apply]

/-! ## The index pairs: the two columns side by side -/

/-- The index pair of entry `e` has the wrapped row coordinate on the left … -/
theorem v17_left (x2 : IVec S2x131072 32) (e : Fin 131072) :
    val_main_v17 (F := Ideal) x2 (ix2 e (0 : Fin 2)) = Cert.Spec.wrapW 8192#32 (x2 (ix2 (0 : Fin 2) e)) := by
  unfold val_main_v17
  rw [concatenate_pair_apply_left _ (val_main_v15 (F := Ideal) x2) (val_main_v16 (F := Ideal) x2)
    concatenates_S131072x1_S131072x1_S131072x2_d1 (ix2 e (0 : Fin 2)) rfl (ix2 e (0 : Fin 1))
    (fun b => match b with | ⟨0, _⟩ => rfl | ⟨1, _⟩ => rfl)]
  rw [val_main_v15_apply, idx_v15, v9_apply]

/-- … and the wrapped column coordinate on the right. -/
theorem v17_right (x2 : IVec S2x131072 32) (e : Fin 131072) :
    val_main_v17 (F := Ideal) x2 (ix2 e (1 : Fin 2)) = Cert.Spec.wrapW 2048#32 (x2 (ix2 (1 : Fin 2) e)) := by
  unfold val_main_v17
  rw [concatenate_pair_apply_right _ (val_main_v15 (F := Ideal) x2) (val_main_v16 (F := Ideal) x2)
    concatenates_S131072x1_S131072x1_S131072x2_d1 (ix2 e (1 : Fin 2)) rfl rfl (ix2 e (0 : Fin 1))
    (fun b hb => match b, hb with | ⟨0, _⟩, _ => rfl | ⟨1, _⟩, hb => absurd rfl hb) rfl]
  rw [val_main_v16_apply, idx_v16, v14_apply]

/-! ## The three data-dependent stages over arbitrary operands -/

/-- The densifying scatter read at `y`. -/
theorem pair_read (x : FVec Ideal S8192x2048 .f32) (idx : IVec S131072x2 32) (upd : FVec Ideal S131072 .f32)
    (y : S8192x2048.Idx) :
    Host.scatterAdd scatter_S8192x2048_S131072x2_S131072_n_01_01_1 x idx upd y
      = x y + ∑ e : Fin 131072, if (idx (ix2 e (0 : Fin 2))).toInt = ((y 0).val : ℤ) ∧ (idx (ix2 e (1 : Fin 2))).toInt = ((y 1).val : ℤ)
          then upd (ix1 e) else 0 :=
  Cert.Lib.ScatterAdd.pair_scatterAdd_apply scatter_S8192x2048_S131072x2_S131072_n_01_01_1_wf x idx upd y

/-- The segment sum of rows read at `y`. -/
theorem row_read (x : FVec Ideal S8192x2048 .f32) (idx : IVec S131072x1 32) (upd : FVec Ideal S131072x2048 .f32)
    (y : S8192x2048.Idx) :
    Host.scatterAdd scatter_S8192x2048_S131072x1_S131072x2048_1_0_0_1 x idx upd y
      = x y + ∑ e : Fin 131072, if (idx (ix2 e (0 : Fin 1))).toInt = ((y 0).val : ℤ) then upd (ix2 e (y 1)) else 0 :=
  Cert.Lib.ScatterAdd.row_scatterAdd_apply scatter_S8192x2048_S131072x1_S131072x2048_1_0_0_1_wf x idx upd y

/-- The row gather read at `(r, j)`. -/
theorem gather_read (x : FVec Ideal S8192x2048 .f32) (idx : IVec S131072x1 32) (r : Fin 131072) (j : Fin 2048) :
    Host.gather gather_S8192x2048_S131072x1_S131072x2048_1_0_n_n_0_1_12048 x idx (ix2 r j)
      = x (ix2 (Cert.Spec.clampRow 8192 (by norm_num) (idx (ix2 r (0 : Fin 1)))) j) :=
  Cert.Lib.ScatterAdd.row_gather_apply (by norm_num) gather_S8192x2048_S131072x1_S131072x2048_1_0_n_n_0_1_12048_wf x idx r j

/-! ## The dense matrix, the products, the result -/

/-- The densified second operand is `dense`. -/
theorem v18_apply (x2 : IVec S2x131072 32) (x3 : FVec Ideal S131072 .f32) (y : S8192x2048.Idx) :
    val_main_v18 (F := Ideal) x2 x3 y = Cert.Spec.dense 8192 2048 8192#32 2048#32 x2 x3 y := by
  unfold val_main_v18
  rw [pair_read, val_main_v0_apply, val_main_cst_apply, Ideal.ofBits_def, Ideal.ofBits_zero_f32, zero_add]
  unfold Cert.Spec.dense
  refine Finset.sum_congr rfl fun e _ => ?_
  rw [v17_left, v17_right]

/-- Entry `e`'s contribution at column `j`: its value times the dense matrix's entry in the row its column names. -/
theorem v30_apply (x0 : IVec S2x131072 32) (x1 : FVec Ideal S131072 .f32) (x2 : IVec S2x131072 32)
    (x3 : FVec Ideal S131072 .f32) (e : Fin 131072) (j : Fin 2048) :
    val_main_v30 (F := Ideal) x0 x1 x2 x3 (ix2 e j)
      = x1 (ix1 e) * Cert.Spec.dense 8192 2048 8192#32 2048#32 x2 x3
          (ix2 (Cert.Spec.clampRow 8192 (by norm_num) (Cert.Spec.wrapW 8192#32 (x0 (ix2 (1 : Fin 2) e)))) j) := by
  rw [val_main_v30_apply, Ideal.mulf_def, val_main_v29_apply, idx_v29, val_main_v19_apply, idx_v19]
  unfold val_main_v28
  rw [gather_read, v27_apply, v18_apply]

/-- The reference's last stage is `refSpec` of the first operand's list and the second operand's dense matrix. -/
theorem val_result (x0 : IVec S2x131072 32) (x1 : FVec Ideal S131072 .f32) (x2 : IVec S2x131072 32) (x3 : FVec Ideal S131072 .f32) :
    (val_main_v35 (F := Ideal) x0 x1 x2 x3 : Cert.Spec.SKN.Idx → EReal)
      = Cert.Spec.refSpec x0 x1 (Cert.Spec.dense 8192 2048 8192#32 2048#32 x2 x3) := by
  funext y
  unfold val_main_v35
  rw [row_read, val_main_v33_apply, val_main_cst_5_apply, Ideal.ofBits_def, Ideal.ofBits_zero_f32, zero_add]
  unfold Cert.Spec.refSpec
  refine Finset.sum_congr rfl fun e _ => ?_
  rw [v34_apply, v30_apply x0 x1 x2 x3 e (y 1)]

end Cert.ReferenceIdeal.RefValue

end
-- ==== Proof.PreRead.lean ====
/-
  The precondition, read: every value of both coordinate lists is a real number, and every coordinate word of the first
  list is in `[0, 8192)`.
-/
import proofs.«404442_j80616536146653_3_alg».proof.Pre_finite_inputs
import proofs.«404442_j80616536146653_3_alg».proof.Proof.Gen.Pre_finite_inputs
import proofs.«404442_j80616536146653_3_alg».proof.Proof.Spec
import Idealize.ShloMosaic.Lib.ReduceAll
import Idealize.ShloMosaic.Lib.StableHlo.Predicate

noncomputable section

namespace Cert.PreRead

open Idealize.ShloMosaic Idealize.ShloMosaic.ValueIdx

/-- The result of a reduction over every axis has a single index. -/
instance : Subsingleton Cert.Pre_finite_inputs.S_.Idx := ⟨fun a b => funext fun d => d.elim0⟩

/-- The word `0x7F800000` is `+∞`. -/
theorem inf_bits : Ideal.ofBits .f32 0x7F800000#32 = (⊤ : EReal) := by simp [Ideal.ofBits, Ideal.ieee]

/-- An extended real whose absolute value is below `+∞` is a real number. -/
theorem real_of_abs_lt_top (x : EReal) (h : Ideal.cmp .olt (max x (-x)) (⊤ : EReal) = 1#1) : ∃ r : ℝ, x = r := by
  unfold Ideal.cmp at h
  rw [StableHlo.Predicate.ofBool_eq_one_iff] at h
  simp only [decide_eq_true_eq] at h
  induction x using EReal.rec with
  | bot => simp at h
  | coe r => exact ⟨r, rfl⟩
  | top => simp at h

/-- One element of the finiteness test: `|x| < +∞`, the bound a broadcast scalar constant. -/
theorem real_of_elem [Cert.Pre_finite_inputs.Facts] (v : FVec Ideal Cert.Pre_finite_inputs.S131072 .f32)
    (e : Cert.Pre_finite_inputs.S131072.Idx)
    (h : cmpf CmpFPredicate.olt (Host.absf v)
        (broadcastInDim Cert.Pre_finite_inputs.S131072 ![] Cert.Pre_finite_inputs.Facts.bcast_S_S131072
          (constant Cert.Pre_finite_inputs.S_ FTy.f32 0x7F800000#32)) e = 1#1) : ∃ r : ℝ, v e = r := by
  apply real_of_abs_lt_top
  rw [← inf_bits]
  exact h

/-- One element of the range test: `0 ≤ w` and `w < 8192`, signed, both bounds broadcast scalar constants. -/
theorem range_of_elem [Cert.Pre_finite_inputs.Facts] (v : IVec Cert.Pre_finite_inputs.S2x131072 32)
    (j : Cert.Pre_finite_inputs.S2x131072.Idx)
    (h : andi
        (cmpi CmpIPredicate.sge v
          (broadcastInDim Cert.Pre_finite_inputs.S2x131072 ![] Cert.Pre_finite_inputs.Facts.bcast_S_S2x131072
            (constantI Cert.Pre_finite_inputs.S_ 32 0#32)))
        (cmpi CmpIPredicate.slt v
          (broadcastInDim Cert.Pre_finite_inputs.S2x131072 ![] Cert.Pre_finite_inputs.Facts.bcast_S_S2x131072
            (constantI Cert.Pre_finite_inputs.S_ 32 8192#32))) j = 1#1) :
    0 ≤ (v j).toInt ∧ (v j).toInt < 8192 := by
  obtain ⟨hge, hlt⟩ := IntOp.andi_eq_one.1 h
  have hge' : (0#32 : BitVec 32).toInt ≤ (v j).toInt := IntOp.cmpi_sge.1 hge
  have hlt' : (v j).toInt < (8192#32 : BitVec 32).toInt := IntOp.cmpi_slt.1 hlt
  have e0 : (0#32 : BitVec 32).toInt = 0 := by decide
  have e1 : (8192#32 : BitVec 32).toInt = 8192 := by decide
  rw [e0] at hge'
  rw [e1] at hlt'
  exact ⟨hge', hlt'⟩

/-- What the printed precondition says of its four arguments. -/
theorem read [Cert.Pre_finite_inputs.Facts] (a0 : IVec Cert.Spec.S2E 32) (a1 : FVec Ideal Cert.Spec.SE .f32)
    (a2 : IVec Cert.Spec.S2E 32) (a3 : FVec Ideal Cert.Spec.SE .f32)
    (h : Cert.Pre_finite_inputs.fn (F := Ideal) a0 a1 a2 a3 = fun _ => 1#1) :
    (∀ e, ∃ r : ℝ, a1 e = r) ∧ (∀ e, ∃ r : ℝ, a3 e = r)
      ∧ ∀ (a : Fin 2) (e : Fin 131072), 0 ≤ (a0 (ix2 a e)).toInt ∧ (a0 (ix2 a e)).toInt < 8192 := by
  have h0 := congrFun h ValueIdx.ix0
  unfold Cert.Pre_finite_inputs.fn at h0
  dsimp only at h0
  -- the three conjuncts: both value lists finite, the first coordinate list in range
  obtain ⟨h01, hi⟩ := IntOp.andi_eq_one.1 h0
  obtain ⟨h1, h3⟩ := IntOp.andi_eq_one.1 h01
  refine ⟨fun e => ?_, fun e => ?_, fun a e => ?_⟩
  · exact real_of_elem a1 e (Host.reduce_andi_all _ _ _ _ _ h1 e)
  · exact real_of_elem a3 e (Host.reduce_andi_all _ _ _ _ _ h3 e)
  · exact range_of_elem a0 (ix2 a e) (Host.reduce_andi_all _ _ _ _ _ hi (ix2 a e))

end Cert.PreRead

end
-- ==== Proof.lean ====
/-
  A sparse matrix product, both operands given as coordinate lists: `out = A · B`, with `A` `8192 × 8192` and `B`
  `8192 × 2048`, each the dense matrix its list of 131072 `(row, column, value)` entries denotes under accumulation.

  The kernel densifies both lists on the host (sorting the entries first, which changes nothing: a sum over all entries
  does not depend on their order) and multiplies the two dense matrices in 64 blocks of `256 × 1024`. The reference
  densifies only `B` and, entry by entry of `A`'s list, adds `value · B[column, :]` into row `row` of the result. On
  the extended reals the two agree where the values are finite (a product is distributed over a sum) and `A`'s
  coordinates lie in `[0, 8192)` (outside it the two programs read an index differently: the kernel's scatter wraps a
  negative row and drops a column past the end, the reference's segment sum drops a negative row and its gather clamps
  a column past the end). The pieces: `Spec` states both results as functions of the arguments and proves them equal
  (`Coalesce` has the law); `KernelHost` and `KernelBlocks` read the kernel's arrays and its blocks, `RefValue` the
  reference's stages, `PreRead` the precondition, `LibScatterAdd` an accumulating scatter at one index.
-/
import proofs.«404442_j80616536146653_3_alg».proof.Defs
import proofs.«404442_j80616536146653_3_alg».proof.Proof.Gen.Kernel
import proofs.«404442_j80616536146653_3_alg».proof.Proof.Gen.Kernel.Skeleton
import proofs.«404442_j80616536146653_3_alg».proof.Proof.Gen.Kernel.Launch
import proofs.«404442_j80616536146653_3_alg».proof.Proof.Gen.Kernel.Points
import proofs.«404442_j80616536146653_3_alg».proof.Proof.Gen.Kernel.Frame
import proofs.«404442_j80616536146653_3_alg».proof.Proof.Gen.KernelIdeal
import proofs.«404442_j80616536146653_3_alg».proof.Proof.Gen.KernelIdeal.Skeleton
import proofs.«404442_j80616536146653_3_alg».proof.Proof.Gen.KernelIdeal.Launch
import proofs.«404442_j80616536146653_3_alg».proof.Proof.Gen.KernelIdeal.Points
import proofs.«404442_j80616536146653_3_alg».proof.Proof.Gen.KernelIdeal.Frame
import proofs.«404442_j80616536146653_3_alg».proof.Proof.Gen.ReferenceIdeal
import proofs.«404442_j80616536146653_3_alg».proof.Proof.Gen.Pre_finite_inputs
import proofs.«404442_j80616536146653_3_alg».proof.Proof.Gen.KernelIdeal.Value
import proofs.«404442_j80616536146653_3_alg».proof.Proof.Gen.ReferenceIdeal.Run
import proofs.«404442_j80616536146653_3_alg».proof.Proof.Gen.ReferenceIdeal.Read
import proofs.«404442_j80616536146653_3_alg».proof.Proof.Spec
import proofs.«404442_j80616536146653_3_alg».proof.Proof.KernelBlocks
import proofs.«404442_j80616536146653_3_alg».proof.Proof.KernelHost
import proofs.«404442_j80616536146653_3_alg».proof.Proof.RefValue
import proofs.«404442_j80616536146653_3_alg».proof.Proof.PreRead
import Idealize.ShloMosaic.Adequacy
import Idealize.ShloMosaic.Init

noncomputable section

namespace Cert.Proof

open Idealize.ShloMosaic Idealize.ShloMosaic.TcCoe Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the product of the two dense matrices: the kernel by its blocks over the arrays its host
    program built, the reference by its stages, the two functions joined by `Spec.bridge` under the precondition. -/
theorem algebraic : Cert.algebraic_KernelIdeal_ReferenceIdeal := by
  intro m ρ m' ρ' hpre hagree
  refine ⟨fun c => Cert.Spec.prodSpec
      (Cert.Spec.dense 8192 8192 8192#32 8192#32 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.Spec.dense 8192 2048 8192#32 2048#32 (m ((c.tc : Thread Cert.KernelIdeal.nD Cert.KernelIdeal.τ).loc Cert.KernelIdeal.main_arg2))
        (m ((c.tc : Thread Cert.KernelIdeal.nD Cert.KernelIdeal.τ).loc Cert.KernelIdeal.main_arg3))), ?_, ?_⟩
  · refine (θ_run Cert.KernelIdeal.defs _ _).mono (fun r h c => ⟨(h c).1.trans ?_, (h c).2⟩)
      (Cert.KernelIdeal.Blocks.run_prod m ρ)
    rw [Cert.KernelIdeal.HostValue.V_lhs, Cert.KernelIdeal.HostValue.V_rhs]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefValue.val_result,
      (hagree c).1, (hagree c).2.1, (hagree c).2.2.1, (hagree c).2.2.2]
    obtain ⟨hv1, hv3, hr⟩ := Cert.PreRead.read _ _ _ _ (hpre c)
    exact (Cert.Spec.bridge _ _ _ hr hv1 (fun y => Cert.Spec.dense_real 8192 2048 8192#32 2048#32 _ _ hv3 y)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
